-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1024x1024 .f32) (main_arg7 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_v33

def fn {F : FTy → Type} [FloatOps F] (main_arg0 : FVec F S4096x1024 .f32) (main_arg1 : FVec F S4096x1024 .f32) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S1024x512 : Shape := ⟨2, ![1024, 512]⟩

abbrev nBuf : Space → Nat
  | .hbm => 15
  | .vmem => 27
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1x1024, .f32⟩
  | .hbm, ⟨9, _⟩ => ⟨S4096x1024, .bf16⟩
  | .hbm, ⟨10, _⟩ => ⟨S1x1024, .f32⟩
  | .hbm, ⟨11, _⟩ => ⟨S4096x1024, .bf16⟩
  | .hbm, ⟨12, _⟩ => ⟨S1x1024, .f32⟩
  | .hbm, ⟨13, _⟩ => ⟨S4096x1024, .bf16⟩
  | .hbm, ⟨14, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024, .f32⟩
  | .local _ .vmem, ⟨16, _⟩ => ⟨S1024x1024, .bf16⟩
  | .local _ .vmem, ⟨17, _⟩ => ⟨S1024x1024, .bf16⟩
  | .local _ .vmem, ⟨18, _⟩ => ⟨S1024x1024, .bf16⟩
  | .local _ .vmem, ⟨19, _⟩ => ⟨S1024x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S1024x1024, .f32⟩
  | .local _ .vmem, ⟨25, _⟩ => ⟨S1024x1024, .f32⟩
  | .local _ .vmem, ⟨26, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![4, 8], ![false, false]⟩

def k3_cond2 (i : grid3.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_12 : BitVec 32 := 0#32
  let v23 : BitVec 1 := Scalar.cmpi .ne v22 c0_i32_12
  v23

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S512x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1024x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  dot_S1024x1024_S1024x1024_S1024x1024_1_0_0_1_n_n_wf : DotDims.WF S1024x1024 S1024x1024 S1024x1024 [1] [0] [0] [1] [] []
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S4096x1024.size a
  hwx0_3 : ∀ i : grid0.Coords, EltTy.bits .bf16 = 32 ∨ (Rect.block (s := S4096x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x1024.size a
  hwx1_0 : ∀ i : grid1.Coords, EltTy.bits .f32 = 32 ∨ (Rect.block (s := S4096x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x1024.size a
  hwx1_3 : ∀ i : grid1.Coords, EltTy.bits .bf16 = 32 ∨ (Rect.block (s := S4096x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x1024.size a
  hwx2_0 : ∀ i : grid2.Coords, EltTy.bits .f32 = 32 ∨ (Rect.block (s := S4096x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S4096x1024.size a
  hwx2_3 : ∀ i : grid2.Coords, EltTy.bits .bf16 = 32 ∨ (Rect.block (s := S4096x1024) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S4096x1024.size a
  hwx3_0 : ∀ i : grid3.Coords, EltTy.bits .bf16 = 32 ∨ (Rect.block (s := S4096x1024) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x1024.size a ≤ S4096x1024.size a
  hwx3_1 : ∀ i : grid3.Coords, EltTy.bits .bf16 = 32 ∨ (Rect.block (s := S4096x1024) S512x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x1024.size a ≤ S4096x1024.size a
  hwx3_2 : ∀ i : grid3.Coords, EltTy.bits .bf16 = 32 ∨ (Rect.block (s := S4096x1024) S512x1024.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x1024.size a ≤ S4096x1024.size a
  hwx3_3 : ∀ i : grid3.Coords, EltTy.bits .f32 = 32 ∨ (Rect.block (s := S4096x1024) S1024x1024.size (cc3_transform_3 i) (hinb3_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v1) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v3) S512x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v5) S512x1024.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v6) S1024x1024.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩
abbrev S1024x4096 : Shape := ⟨2, ![1024, 4096]⟩
abbrev S4096x4096 : Shape := ⟨2, ![4096, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S4096x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S1024x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096x4096, .f32⟩
  | .hbm, ⟨35, _⟩ => ⟨S4096x4096, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  transposes_S4096x1024_S1024x4096_1_0 : S4096x1024.Transposes [1, 0] S1024x4096
  bcast_S_S4096x4096 : S_.BroadcastsInDim S4096x4096 (![] : Fin 0 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.KI.Proj0.lean ====
/-
  A projection launch, Y = X·W + b on a grid of four row blocks: what one grid point computes and the proof
  data of its pipeline, at ANY contents `V` of the core's buffers when the launch is entered.

  The point t loads rows 1024·t … 1024·t+1023 of X (window 0), the whole weight matrix (window 1, fetched once and
  kept in place afterwards), the bias as a 1×1024 row (window 2, likewise), and stores one 1024×1024 block of the
  result (window 3) covering the output buffer in one piece: the narrowed product of the narrowed operands plus the
  bias row broadcast down the rows.  Nothing is carried from one point to the next, so the invariant of the launch is
  the bare one (the scoped buffers no window stages, and the generator register).
-/
import proofs.«104826_j18837726560765_1_alg».proof.Proof.Gen.KernelIdeal.Launch
import proofs.«104826_j18837726560765_1_alg».proof.Proof.Gen.KernelIdeal.Skeleton
import proofs.«104826_j18837726560765_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the launch is entered: every statement below is at this parameter
variable (V : (c : Dev nD) → (b : Ref sig .tc) → Buf (Elt F) ((c : Thread nD τ).loc b))

/-! ## The blocks the windows stage -/

/-- Window `w`'s block at grid point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row block of X is in its staging buffer at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight matrix is in its staging buffer at every point: fetched at the first, and its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## What a point stores -/

/-- The whole 1024×1024 buffer as one rectangle, and the whole 1×1024 row. -/
abbrev rSq0 : Rect S1024x1024 := Rect.unit (s := S1024x1024) ![0, 0] S1024x1024.size inb_S1024x1024_S1024x1024_0_0
abbrev rRow0 : Rect S1x1024 := Rect.unit (s := S1x1024) ![0, 0] S1x1024.size inb_S1x1024_S1x1024_0_0

/-- The result block a point leaves in window 3's staging buffer, from the three input blocks: its one store. -/
def out0_3 (x0 : Vec F S1024x1024 .f32) (x1 : Vec F S1024x1024 .f32) (x2 : Vec F S1x1024 .f32) : Vec F S1024x1024 .bf16 :=
  View.canon [⟨rSq0, k0_pay1 (View.ld x0 rSq0) (View.ld x1 rSq0) (View.ld x2 rRow0)⟩]

/-- That one store covers the buffer. -/
theorem cover0_3 (p0 : Vec F S1024x1024 .bf16) (y : S1024x1024.Idx) :
    ∃ pc ∈ ([⟨rSq0, p0⟩] : List (View.Piece (Elt F) S1024x1024 .bf16)), y ∈ pc.1.set :=
  View.cover_of_tiled [⟨rSq0, p0⟩] S1024x1024.size (by rfl) y

/-! ## The body's triple -/

set_option maxHeartbeats 2000000 in
/-- On whole staging buffers, the three inputs at `x0 x1 x2` and the output at anything, the body runs to its return
    with the inputs as they were and the output at `out0_3 x0 x1 x2`. -/
theorem sound_kernel0 (c : Dev nD) (E : Set ℕ) (i : grid0.Coords)
    (arg1 : Memref sig .tc .vmem S1024x1024 .f32) (harg1 : arg1.IsWhole) (arg2 : Memref sig .tc .vmem S1024x1024 .f32) (harg2 : arg2.IsWhole)
    (arg3 : Memref sig .tc .vmem S1x1024 .f32) (harg3 : arg3.IsWhole) (arg4 : Memref sig .tc .vmem S1024x1024 .bf16) (harg4 : arg4.IsWhole)
    (x0 : Vec F S1024x1024 .f32) (x1 : Vec F S1024x1024 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of this launch on core `c`: the arrays as the launch finds them; after the body at point `t` each
    input's buffer still at its block and the output's at the block just computed; the bare invariant; nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Attn.lean ====
/-
  The attention launch on its 4 × 8 grid (query block qi, key block ki): what one grid point does, the accumulator it
  carries from point to point in its scratch buffer, and the proof data of its pipeline, at ANY contents `V` of the
  core's buffers when the launch is entered.

  The point t = 8·qi + ki loads the query block (window 0, fetched at ki = 0 and kept in place for the eight points
  of the row), the key block and the value block (windows 1 and 2, fetched at every point), and adds
  σ((Q_blk · K_blkᵀ) · 2⁻⁵) · V_blk to a 1024×1024 accumulator that lives in a scratch buffer of the core: at ki = 0
  the accumulator is first reset to zero, at ki = 7 it is copied whole into the output window's buffer (window 3),
  which the pipeline writes back at exactly those points and leaves alone at the others.  So three cases of the
  body, told apart by the key-block coordinate; and an invariant of the launch that says, after each point, what the
  scratch buffer holds.
-/
import proofs.«104826_j18837726560765_1_alg».proof.Proof.Gen.KernelIdeal.Launch
import proofs.«104826_j18837726560765_1_alg».proof.Proof.Gen.KernelIdeal.Skeleton
import proofs.«104826_j18837726560765_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the launch is entered: every statement below is at this parameter
variable (V : (c : Dev nD) → (b : Ref sig .tc) → Buf (Elt F) ((c : Thread nD τ).loc b))

/-! ## The blocks the windows stage, and the accumulator -/

/-- Window `w`'s block at grid point `t`, read off its array as the launch finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- What the scratch accumulator holds after the body at point `n`: at the first key block of a query block the
    block's term added to zero, at every other key block the block's term added to what the point before left. -/
def acc3 (c : Dev nD) (n : ℕ) (hn : n < cfg3.N) : Vec F S1024x1024 .f32 :=
  match n, hn with
  | 0, hn => k3_pay2 (iblk3 V c 0 ⟨0, hn⟩) (iblk3 V c 1 ⟨0, hn⟩) (k3_pay1 (F := F)) (iblk3 V c 2 ⟨0, hn⟩)
  | n + 1, hn =>
    if (n + 1) % 8 = 0 then
      k3_pay2 (iblk3 V c 0 ⟨n + 1, hn⟩) (iblk3 V c 1 ⟨n + 1, hn⟩) (k3_pay1 (F := F)) (iblk3 V c 2 ⟨n + 1, hn⟩)
    else
      k3_pay2 (iblk3 V c 0 ⟨n + 1, hn⟩) (iblk3 V c 1 ⟨n + 1, hn⟩) (acc3 c n (Nat.lt_of_succ_lt hn)) (iblk3 V c 2 ⟨n + 1, hn⟩)

/-- At the first key block of a query block the accumulator is reset to zero and the block's term added. -/
theorem acc3_first (c : Dev nD) (t : Fin cfg3.N) (h : t.val % 8 = 0) :
    acc3 V c t.val t.isLt = k3_pay2 (iblk3 V c 0 t) (iblk3 V c 1 t) (k3_pay1 (F := F)) (iblk3 V c 2 t) := by
  obtain ⟨n, hn⟩ := t
  cases n with
  | zero => rfl
  | succ n => exact (if_pos h).trans rfl

/-- At every other key block the block's term is added to what the point before left. -/
theorem acc3_next (c : Dev nD) (t : Fin cfg3.N) (h : t.val % 8 ≠ 0) :
    acc3 V c t.val t.isLt = k3_pay2 (iblk3 V c 0 t) (iblk3 V c 1 t) (acc3 V c (t.val - 1) (Nat.lt_of_le_of_lt (Nat.sub_le _ _) t.isLt)) (iblk3 V c 2 t) := by
  obtain ⟨n, hn⟩ := t
  cases n with
  | zero => exact absurd (Nat.zero_mod _) h
  | succ n => exact (if_neg h).trans rfl

/-! ## The body's two conditionals, decided over the grid -/

/-- The first conditional of the body (the accumulator's reset): the key-block coordinate is 0. -/
abbrev cond3_1 (i : grid3.Coords) : Prop :=
  (Scalar.cmpi .ne (Scalar.extui (Scalar.cmpi .eq (BitVec.ofNat 32 (i 1).val) 0#32)) 0#32) = 1#1
/-- The second (the copy into the output block): the key-block coordinate is 7. -/
abbrev cond3_2 (i : grid3.Coords) : Prop := k3_cond2 i = 1#1

/-- The reset is taken at the points ≡ 0 (mod 8), -/
theorem hcond3_1 : ∀ t : Fin cfg3.N, cond3_1 (grid3.coords t) ↔ t.val % 8 = 0 :=
  (by decide +kernel : ∀ t : Fin grid3.N, cond3_1 (grid3.coords t) ↔ t.val % 8 = 0)
/-- the copy at the points ≡ 7 (mod 8). -/
theorem hcond3_2 : ∀ t : Fin cfg3.N, cond3_2 (grid3.coords t) ↔ t.val % 8 = 7 :=
  (by decide +kernel : ∀ t : Fin grid3.N, cond3_2 (grid3.coords t) ↔ t.val % 8 = 7)

/-- Where the copy is not taken the output window is idle, -/
theorem idle3_3 : ∀ t : Fin cfg3.N, ¬cond3_2 (grid3.coords t) → cfg3.idle 3 (grid3.coords t) = true := by decide +kernel
/-- and not written back; -/
theorem noFlush3_3 (t : Fin cfg3.N) (h : ¬cond3_2 (grid3.coords t)) : (cfg3.win 3).flush t = false := by
  rw [Bool.eq_false_iff]; exact fun hf => h ((hcond3_2 t).mpr ((flush3_3 t).mp hf))
/-- where it is taken the window is live. -/
theorem live3_3 : ∀ t : Fin cfg3.N, cond3_2 (grid3.coords t) → cfg3.idle 3 (grid3.coords t) = false := by decide +kernel

/-! ## What a whole-buffer store leaves -/

/-- The zero offsets of a whole-buffer rectangle, as the constant function. -/
theorem zeroOff3 : (![0, 0] : Fin 2 → Nat) = fun _ => 0 := funext fun a => by fin_cases a <;> rfl

/-- After a list of stores whose LAST goes through the whole-shape rectangle at zero offsets, the buffer reads that
    store's payload, whatever the earlier stores and the contents before them were. -/
theorem read_after_whole_store3 {sp : Space} {S : Shape} {e : EltTy} (v : View sig .tc sp S e) (f : v.ty.Contents (Elt F))
    {off : Fin S.rank → Nat} (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero hz inb y⟩),
    View.canon_cons_unit_zero hz]

/-! ## The body's triple, case by case

On whole staging buffers, the three inputs at `x0 x1 x2`: the body runs to its return with the inputs as they were and
the scratch accumulator at the block's term added to what it started from. -/

set_option maxHeartbeats 2000000 in
/-- First key block of a row: the scratch comes at anything and is reset, so it ends at the term added to zero; the
    output window's buffer is not touched. -/
theorem run3_first (c : Dev nD) (E : Set ℕ) (i : grid3.Coords)
    (arg2 : Memref sig .tc .vmem S1024x1024 .bf16) (harg2 : arg2.IsWhole) (arg3 : Memref sig .tc .vmem S512x1024 .bf16) (harg3 : arg3.IsWhole)
    (arg4 : Memref sig .tc .vmem S512x1024 .bf16) (harg4 : arg4.IsWhole) (arg5 : Memref sig .tc .vmem S1024x1024 .f32) (harg5 : arg5.IsWhole)
    (arg6 : Memref sig .tc .vmem S1024x1024 .f32) (harg6 : arg6.IsWhole) (hc1 : cond3_1 i) (hc2 : ¬cond3_2 i)
    (x0 : Vec F S1024x1024 .bf16) (x1 : Vec F S512x1024 .bf16) (x2 : Vec F S512x1024 .bf16) (xo : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare xo
            ∗ owns (c : Thread nD τ) arg6 fullShare (k3_pay2 x0 x1 (k3_pay1 (F := F)) x2)) -∗ K ⟨⟩))
      ⊢ wp frame (wpE (defs₀ (F := F)) Variants.none c none) E (cc3__attn_kernel i arg2 harg2 arg3 harg3 arg4 harg4 arg5 harg5 arg6 harg6) K := by
  simp only [cc3__attn_kernel_eq_skeleton]; unfold cc3__attn_kernel_skel
  unfold owns
  iintro ⟨⟨%f0, %hf0, H0⟩, ⟨%f1, %hf1, H1⟩, ⟨%f2, %hf2, H2⟩, ⟨%fo, %hfo, HO⟩, ⟨%ds, %fs, -, HS⟩, Hk⟩
  subst hf0; subst hf1; subst hf2; subst hfo
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists fo; isplitr; · ipureintro; rfl
    iexact HO
  iexists _; isplitr
  swap; · iexact HS
  ipureintro
  sl_unfold_run_names
  rw [read_after_whole_store3 _ _ zeroOff3]
  simp only [View.readAt_eq_ld, View.ld_unit_zero (S := S1024x1024) zeroOff3, View.ld_unit_zero (S := S512x1024) zeroOff3,
    View.readCov_unit_zero (S := S1024x1024) _ zeroOff3]

set_option maxHeartbeats 2000000 in
/-- A middle key block: the scratch comes at `a` and ends at the term added to `a`; the output window's buffer is not
    touched. -/
theorem run3_mid (c : Dev nD) (E : Set ℕ) (i : grid3.Coords)
    (arg2 : Memref sig .tc .vmem S1024x1024 .bf16) (harg2 : arg2.IsWhole) (arg3 : Memref sig .tc .vmem S512x1024 .bf16) (harg3 : arg3.IsWhole)
    (arg4 : Memref sig .tc .vmem S512x1024 .bf16) (harg4 : arg4.IsWhole) (arg5 : Memref sig .tc .vmem S1024x1024 .f32) (harg5 : arg5.IsWhole)
    (arg6 : Memref sig .tc .vmem S1024x1024 .f32) (harg6 : arg6.IsWhole) (hc1 : ¬cond3_1 i) (hc2 : ¬cond3_2 i)
    (x0 : Vec F S1024x1024 .bf16) (x1 : Vec F S512x1024 .bf16) (x2 : Vec F S512x1024 .bf16) (xo : Vec F S1024x1024 .f32) (a : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare xo ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare xo
            ∗ owns (c : Thread nD τ) arg6 fullShare (k3_pay2 x0 x1 a x2)) -∗ K ⟨⟩))
      ⊢ wp frame (wpE (defs₀ (F := F)) Variants.none c none) E (cc3__attn_kernel i arg2 harg2 arg3 harg3 arg4 harg4 arg5 harg5 arg6 harg6) K := by
  simp only [cc3__attn_kernel_eq_skeleton]; unfold cc3__attn_kernel_skel
  unfold owns
  iintro ⟨⟨%f0, %hf0, H0⟩, ⟨%f1, %hf1, H1⟩, ⟨%f2, %hf2, H2⟩, ⟨%fo, %hfo, HO⟩, ⟨%fs, %hfs, HS⟩, Hk⟩
  subst hf0; subst hf1; subst hf2; subst hfo; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists fo; isplitr; · ipureintro; rfl
    iexact HO
  iexists _; isplitr
  swap; · iexact HS
  ipureintro
  sl_unfold_run_names
  rw [read_after_whole_store3 _ _ zeroOff3]
  simp only [View.readAt_eq_ld, View.ld_unit_zero (S := S1024x1024) zeroOff3, View.ld_unit_zero (S := S512x1024) zeroOff3,
    View.readCov_unit_zero (S := S1024x1024) _ zeroOff3]

set_option maxHeartbeats 2000000 in
/-- Last key block of a row: as a middle one, and then the accumulator is read back and stored whole into the output
    window's buffer, which comes at anything. -/
theorem run3_last (c : Dev nD) (E : Set ℕ) (i : grid3.Coords)
    (arg2 : Memref sig .tc .vmem S1024x1024 .bf16) (harg2 : arg2.IsWhole) (arg3 : Memref sig .tc .vmem S512x1024 .bf16) (harg3 : arg3.IsWhole)
    (arg4 : Memref sig .tc .vmem S512x1024 .bf16) (harg4 : arg4.IsWhole) (arg5 : Memref sig .tc .vmem S1024x1024 .f32) (harg5 : arg5.IsWhole)
    (arg6 : Memref sig .tc .vmem S1024x1024 .f32) (harg6 : arg6.IsWhole) (hc1 : ¬cond3_1 i) (hc2 : cond3_2 i)
    (x0 : Vec F S1024x1024 .bf16) (x1 : Vec F S512x1024 .bf16) (x2 : Vec F S512x1024 .bf16) (a : Vec F S1024x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare a
        ∗ (iprop(owns (c : Thread nD τ) arg2 fullShare x0 ∗ owns (c : Thread nD τ) arg3 fullShare x1 ∗ owns (c : Thread nD τ) arg4 fullShare x2
            ∗ owns (c : Thread nD τ) arg5 fullShare (k3_pay2 x0 x1 a x2)
            ∗ owns (c : Thread nD τ) arg6 fullShare (k3_pay2 x0 x1 a x2)) -∗ K ⟨⟩))
      ⊢ wp frame (wpE (defs₀ (F := F)) Variants.none c none) E (cc3__attn_kernel i arg2 harg2 arg3 harg3 arg4 harg4 arg5 harg5 arg6 harg6) K := by
  simp only [cc3__attn_kernel_eq_skeleton]; unfold cc3__attn_kernel_skel
  unfold owns
  iintro ⟨⟨%f0, %hf0, H0⟩, ⟨%f1, %hf1, H1⟩, ⟨%f2, %hf2, H2⟩, ⟨%dO, %fo, -, HO⟩, ⟨%fs, %hfs, HS⟩, Hk⟩
  subst hf0; subst hf1; subst hf2; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [HO]
  · iexists _; isplitr
    swap; · iexact HO
    ipureintro
    sl_unfold_run_names
    rw [read_after_whole_store3 _ _ zeroOff3]
    simp only [View.readAt_eq_ld, View.ld_unit_zero (S := S1024x1024) zeroOff3, View.ld_unit_zero (S := S512x1024) zeroOff3,
      View.readCov_unit_zero (S := S1024x1024) _ zeroOff3]
  iexists _; isplitr
  swap; · iexact HS
  ipureintro
  sl_unfold_run_names
  rw [read_after_whole_store3 _ _ zeroOff3]
  simp only [View.readAt_eq_ld, View.ld_unit_zero (S := S1024x1024) zeroOff3, View.ld_unit_zero (S := S512x1024) zeroOff3,
    View.readCov_unit_zero (S := S1024x1024) _ zeroOff3]

/-! ## The input windows' staging buffers -/

/-- The query block is in its staging buffer at every point of its row: fetched at the row's first point, and its block index does not move along the row. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- The key block is in its staging buffer at every point (it is fetched at every point). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The value block likewise. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The invariant of the launch -/

/-- The scratch accumulator, as a memref: a whole scoped buffer of the core that no window stages. -/
abbrev scM3 : Memref sig .tc .vmem S1024x1024 .f32 := Memref.whole cc3_scratch0

/-- The core's other scoped buffers that no window of this launch stages (the staging buffers of the launches
    before it), each at some contents: the body never touches them, so they are carried unopened. -/
abbrev others3 (c : Dev nD) : sProp 𝕄 :=
  Pipeline.scopedRestBut (Ix := Unit) (Name := ℕ) (U := UR sig nD τ) (Lvl := ℕ) (Val := Elt F) spec3 c [cc3_scratch0]

/-- What the launch hands the region, with the scratch accumulator split off as a memref owned at some contents. -/
theorem PhiA3_eq (c : Dev nD) :
    (Pipeline.ΦA spec3 c : sProp 𝕄)
      = iprop((iprop(∃ d, owns (c : Thread nD τ) scM3 fullShare d) ∗ others3 (F := F) c) ∗ (∃ r, prngReg c r)) := by
  unfold Pipeline.ΦA
  rw [Pipeline.scopedRest_split_of_list spec3 c [cc3_scratch0] (by decide) (by decide)]
  simp only [scM3, owns_whole]; try rfl

/-- The invariant before position `n`: before the first point what the launch hands the region (the scratch at
    anything); afterwards the scratch accumulator at what the point before left in it, beside the other scoped
    buffers and the generator register. -/
def Phi3 (c : Dev nD) : (n : ℕ) → n ≤ cfg3.N → sProp 𝕄
  | 0, _ => Pipeline.ΦA spec3 c
  | n + 1, hn => iprop((owns (c : Thread nD τ) scM3 fullShare (acc3 V c n hn) ∗ others3 (F := F) c) ∗ (∃ r, prngReg c r))

theorem Phi3_zero (c : Dev nD) (n : ℕ) (h : n ≤ cfg3.N) (hz : n = 0) : Phi3 V c n h = Pipeline.ΦA spec3 c := by
  subst hz; rfl

theorem Phi3_succ (c : Dev nD) (n : ℕ) (hn : n < cfg3.N) :
    Phi3 V c (n + 1) hn = iprop((owns (c : Thread nD τ) scM3 fullShare (acc3 V c n hn) ∗ others3 (F := F) c) ∗ (∃ r, prngReg c r)) := rfl

theorem Phi3_pos (c : Dev nD) (n : ℕ) (h : n ≤ cfg3.N) (hz : n ≠ 0) :
    Phi3 V c n h = iprop((owns (c : Thread nD τ) scM3 fullShare (acc3 V c (n - 1) (by omega)) ∗ others3 (F := F) c) ∗ (∃ r, prngReg c r)) := by
  cases n with
  | zero => exact absurd rfl hz
  | succ n => rfl

/-! ## The pipeline's proof data -/

/-- The proof data of this launch on core `c`: the arrays as the launch finds them; after the body at point `t` each
    input's buffer still at its block and the output's at the accumulator (which is what the body copies there at
    the last key block of a row, the only points that consult it); the invariant above; full shares; nothing owed. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => acc3 V c t.val t.isLt
  Φ t := Phi3 V c t.val (Nat.le_of_lt_succ t.isLt)
  q _ := fullShare
  owed _ := 0

theorem A_eq3 (c : Dev nD) (w : Fin cfg3.W) : (dat3 V c).A w = V c (Pipeline.arrRef spec3 w) := by
  dsimp only [dat3]
theorem q3 (c : Dev nD) (w : Fin cfg3.W) : (dat3 V c).q w = fullShare := by dsimp only [dat3]
theorem owed3 (c : Dev nD) (t : Fin (cfg3.N + 1)) : (dat3 V c).owed t = 0 := by dsimp only [dat3]
theorem recorded3 (c : Dev nD) (t : Fin (cfg3.N + 1)) : (dat3 V c).recorded t = Set.univ := by dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
/-- At the last key block of a query block the output window's buffer receives the accumulator. -/
theorem after3_3 (c : Dev nD) (t : Fin cfg3.N) (h : t.val % 8 = 7) : (dat3 V c).after 3 t = acc3 V c t.val t.isLt := by
  dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-- The invariant at a point's start, restated at the point's position. -/
theorem Phi3_castSucc (c : Dev nD) (t : Fin cfg3.N) :
    (dat3 V c).Φ t.castSucc = Phi3 V c t.val (Nat.le_of_lt t.isLt) := by
  dsimp only [dat3]; simp only [Fin.coe_castSucc]

/-- An input window's buffer is handed back at its block (no point is idle for an input). -/
theorem leaves3_0 (c : Dev nD) (t : Fin cfg3.N) :
    (dat3 V c).leavesExact 0 t = owns (c : Thread nD τ) (st3_0 t) fullShare (iblk3 V c 0 t) := by
  rw [← after3_0 V c t]
theorem leaves3_1 (c : Dev nD) (t : Fin cfg3.N) :
    (dat3 V c).leavesExact 1 t = owns (c : Thread nD τ) (st3_1 t) fullShare (iblk3 V c 1 t) := by
  rw [← after3_1 V c t]
theorem leaves3_2 (c : Dev nD) (t : Fin cfg3.N) :
    (dat3 V c).leavesExact 2 t = owns (c : Thread nD τ) (st3_2 t) fullShare (iblk3 V c 2 t) := by
  rw [← after3_2 V c t]

/-- What the launch hands the region is the invariant before the first point, -/
theorem hin3 (c : Dev nD) : (Pipeline.ΦA spec3 c : sProp 𝕄) ⊢ (dat3 V c).Φ 0 := by
  rw [show (dat3 V c).Φ 0 = Phi3 V c 0 (Nat.zero_le _) from rfl, Phi3_zero V c 0 _ rfl]
  try exact Idealize.SL.BI.Entails.refl _

/-- after any later point the invariant gives it back, the accumulator's contents forgotten, -/
theorem Phi3_out (c : Dev nD) (t : Fin (cfg3.N + 1)) (ht : t.val ≠ 0) : (dat3 V c).Φ t ⊢ (Pipeline.ΦA spec3 c : sProp 𝕄) := by
  rw [show (dat3 V c).Φ t = Phi3 V c t.val (Nat.le_of_lt_succ t.isLt) from rfl, Phi3_pos V c _ _ ht, PhiA3_eq]
  iintro ⟨⟨HS, HR⟩, Hg⟩
  isplitl [HS HR]
  · isplitl [HS]
    · iexists _; iexact HS
    iexact HR
  iexact Hg

/-- and so after the last point. -/
theorem hout3 (c : Dev nD) : (dat3 V c).Φ (Fin.last cfg3.N) ⊢ (Pipeline.ΦA spec3 c : sProp 𝕄) :=
  Phi3_out V c _ (by rw [Fin.val_last]; have : cfg3.N = 32 := N_3; omega)

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t ∗ (dat3 V c).leavesExact 1 t ∗ (dat3 V c).leavesExact 2 t ∗ (dat3 V c).leavesExact 3 t)

set_option maxHeartbeats 4000000 in
/-- The body at any point. The inputs' buffers hold their blocks; the key-block coordinate t mod 8 says which case the
    point is in. At 0 the invariant hands the scratch at whatever it holds (what the launch found there, or the previous
    row's final sum), the reset overwrites it and the scratch ends at the block's term added to zero; at 1 … 6 the scratch
    comes at what the point before left and ends with the block's term added; in both the output window is idle and its
    buffer goes back untouched. At 7 the same update, and the output window's buffer receives the accumulator. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl,
    show (dat3 V c).Φ t.succ = Phi3 V c (t.val + 1) t.isLt from rfl, Phi3_succ,
    leaves3_0, leaves3_1, leaves3_2, Phi3_castSucc V c t]
  have hN : t.val < 32 := lt_of_lt_of_eq t.isLt (show cfg3.N = 32 from N_3)
  by_cases h0 : t.val % 8 = 0
  · -- the first key block of a row: reset, then the block's term
    have hc1 : cond3_1 (grid3.coords t) := (hcond3_1 t).mpr h0
    have hc2 : ¬cond3_2 (grid3.coords t) := fun h => by have := (hcond3_2 t).mp h; omega
    rw [Dat.leavesExact_idle (dat3 V c) 3 t (idle3_3 t hc2) (noFlush3_3 t hc2), acc3_first V c t h0]
    by_cases hz : t.val = 0
    · rw [Phi3_zero V c _ _ hz, PhiA3_eq]
      iintro ⟨⟨⟨HS, HR⟩, Hg⟩, Ho, ⟨%d0, H0⟩, ⟨%d1, H1⟩, ⟨%d2, H2⟩, ⟨%d3, H3⟩⟩
      iapply (run3_first c Set.univ _ _ _ _ _ _ _ _ _ _ _ hc1 hc2 (iblk3 V c 0 t) (iblk3 V c 1 t) (iblk3 V c 2 t) ((dat3 V c).before 3 t d3) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
    · rw [Phi3_pos V c _ _ hz]
      iintro ⟨⟨⟨HS, HR⟩, Hg⟩, Ho, ⟨%d0, H0⟩, ⟨%d1, H1⟩, ⟨%d2, H2⟩, ⟨%d3, H3⟩⟩
      iapply (run3_first c Set.univ _ _ _ _ _ _ _ _ _ _ _ hc1 hc2 (iblk3 V c 0 t) (iblk3 V c 1 t) (iblk3 V c 2 t) ((dat3 V c).before 3 t d3) _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3
  · have hc1 : ¬cond3_1 (grid3.coords t) := fun h => h0 ((hcond3_1 t).mp h)
    have hz : t.val ≠ 0 := fun e => h0 (by rw [e])
    rw [Phi3_pos V c _ _ hz, acc3_next V c t h0]
    by_cases h7 : t.val % 8 = 7
    · -- the last key block of a row: the block's term, then the accumulator goes to the output block
      have hc2 : cond3_2 (grid3.coords t) := (hcond3_2 t).mpr h7
      rw [show (dat3 V c).leavesExact 3 t = owns (c : Thread nD τ) (st3_3 t) fullShare ((dat3 V c).after 3 t) from by
        unfold Dat.leavesExact; rw [live3_3 t hc2], after3_3 V c t h7, acc3_next V c t h0]
      iintro ⟨⟨⟨HS, HR⟩, Hg⟩, Ho, ⟨%d0, H0⟩, ⟨%d1, H1⟩, ⟨%d2, H2⟩, ⟨%d3, H3⟩⟩
      iapply (run3_last c Set.univ _ _ _ _ _ _ _ _ _ _ _ hc1 hc2 (iblk3 V c 0 t) (iblk3 V c 1 t) (iblk3 V c 2 t)
        (acc3 V c (t.val - 1) (Nat.lt_of_le_of_lt (Nat.sub_le _ _) t.isLt)) _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexact H3
    · -- a middle key block: the block's term
      have hc2 : ¬cond3_2 (grid3.coords t) := fun h => h7 ((hcond3_2 t).mp h)
      rw [Dat.leavesExact_idle (dat3 V c) 3 t (idle3_3 t hc2) (noFlush3_3 t hc2)]
      iintro ⟨⟨⟨HS, HR⟩, Hg⟩, Ho, ⟨%d0, H0⟩, ⟨%d1, H1⟩, ⟨%d2, H2⟩, ⟨%d3, H3⟩⟩
      iapply (run3_mid c Set.univ _ _ _ _ _ _ _ _ _ _ _ hc1 hc2 (iblk3 V c 0 t) (iblk3 V c 1 t) (iblk3 V c 2 t) ((dat3 V c).before 3 t d3)
        (acc3 V c (t.val - 1) (Nat.lt_of_le_of_lt (Nat.sub_le _ _) t.isLt)) _)
      isplitl [H0]; · iexact H0
      isplitl [H1]; · iexact H1
      isplitl [H2]; · iexact H2
      isplitl [H3]; · iexact H3
      isplitl [HS]; · iexact HS
      iintro ⟨H0, H1, H2, H3, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      iexists _; iexact H3

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
/-
  The whole program as a run: @main is a reshape of a bias, a projection launch, the same twice more, and the
  attention launch.  Between two items every unscoped buffer of the core is held at named contents: the launch
  contents, then each host stretch applied, then each launch's arrays replaced by what its pipeline leaves.  From
  the four launches' proof data and body obligations the run ends with every unscoped buffer at the last of those
  contents, on every weakly fair execution, for any float instance.
-/
import proofs.«104826_j18837726560765_1_alg».proof.Proof.Gen.KernelIdeal.Launch
import proofs.«104826_j18837726560765_1_alg».proof.Proof.Gen.KernelIdeal.Skeleton
import proofs.«104826_j18837726560765_1_alg».proof.Proof.Gen.KernelIdeal.Points
import proofs.«104826_j18837726560765_1_alg».proof.Proof.KI.Proj0
import proofs.«104826_j18837726560765_1_alg».proof.Proof.KI.Proj1
import proofs.«104826_j18837726560765_1_alg».proof.Proof.KI.Proj2
import proofs.«104826_j18837726560765_1_alg».proof.Proof.KI.Attn
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch. -/
abbrev W0 : Dev nD → Valuation τ sig (Elt F) := fun c b => m (c, b)
/-- After the first bias reshape. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At launch 0's exit: its arrays at what the pipeline leaves (Q's array written block by block), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second bias reshape. -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At launch 1's exit: its arrays at what the pipeline leaves (K's array), every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third bias reshape. -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At launch 2's exit: its arrays at what the pipeline leaves (V's array), every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-- At launch 3's exit: its arrays at what the pipeline leaves (the result array, one query block per eighth point), every other buffer as entered. -/
def W7 (c : Dev nD) : Valuation τ sig (Elt F) :=
  Pipeline.withArrays spec3 c (W6 m c) fun w => (dat3 (V6 m) c).arrAt w cfg3.N
theorem W7_arr (c : Dev nD) (w : Fin cfg3.W) :
    W7 m c (Proc.devRef .tc (Pipeline.arrRef spec3 w)) = (dat3 (V6 m) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m c (Proc.devRef .tc b) = W6 m c (Proc.devRef .tc b) := by
  unfold W7; exact Pipeline.withArrays_of_ne spec3 c _ _ b hb
abbrev V7 : (c : Dev nD) → (b : Ref sig .tc) → Buf (Elt F) ((c : Thread nD τ).loc b) := fun c b => W7 m c b
theorem hF3 (c : Dev nD) (w : Fin cfg3.W) : (dat3 (V6 m) c).arrAt w cfg3.N = V7 m c (Pipeline.arrRef spec3 w) :=
  (W7_arr m c w).symm
theorem hrest3 (c : Dev nD) : ∀ b, b ∉ Finset.univ.image (Pipeline.arrRef spec3) → V7 m c b = V6 m c b :=
  fun b hb => W7_of_ne m c b fun w e => hb (Finset.mem_image.mpr ⟨w, Finset.mem_univ _, e⟩)

/-! ## The proof data family and what rides beside the buffers -/

/-- No launch has a prefetched table. -/
abbrev admH : (p : Fin 4) → (pcfgs (F := F) p).Adm := fun p => (cfgs p).toPCfg_adm
/-- Every launch's proof data, each at the contents its launch is entered from. -/
def pdats : (p : Fin 4) → (c : Dev nD) → Dat τ (Elt F) Unit ℕ (UR sig nD τ) ℕ (Pipeline.pin (pcfgs (F := F)) admH p) c
  | ⟨0, _⟩ => fun c => dat0 (V1 m) c
  | ⟨1, _⟩ => fun c => dat1 (V3 m) c
  | ⟨2, _⟩ => fun c => dat2 (V5 m) c
  | ⟨3, _⟩ => fun c => dat3 (V6 m) c
abbrev 𝒱H : Variants := Variants.none
/-- No core owes another anything. -/
abbrev LH : GSem nD τ sig → Finset Unit := fun _ => ∅
abbrev lvH : GSem nD τ sig → Unit → ℕ := fun _ _ => 0
/-- Beside the buffers: the generator register at some state, and the core owing nothing. -/
abbrev RH (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱H LH lvH :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RH

theorem hostOps0_freshH : (hostOps0 : List (HloOp τ sig (Elt F))).Forall fun op => op.fresh = ∅ := by
  simp only [List.Forall]; repeat' constructor
theorem hostOps1_freshH : (hostOps1 : List (HloOp τ sig (Elt F))).Forall fun op => op.fresh = ∅ := by
  simp only [List.Forall]; repeat' constructor
theorem hostOps2_freshH : (hostOps2 : List (HloOp τ sig (Elt F))).Forall fun op => op.fresh = ∅ := by
  simp only [List.Forall]; repeat' constructor

/-! ## The launches as segments -/

set_option backward.isDefEq.respectTransparency.types false in
/-- Launch 0 over the thread state: entered from every unscoped buffer at `W1`, left at `W2`.  Its arrays are
    split out of the unscoped buffers and put back at their exit contents; the generator register goes into the bare
    invariant and comes out again; nothing is owed; the kernel has no semaphore of its own. -/
def reg0 : Pipeline.RegionSeg (pcfgs (F := F)) admH (pdats m) () defs₀ 𝒱H LH lvH 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ LH lvH 0 fun _ _ => rfl
  pre c := iprop(StableHlo.held (c : Thread nD τ) (Pipeline.ucRefs τ sig) (W1 m c) ∗ RH c)
  post c := iprop(StableHlo.held (c : Thread nD τ) (Pipeline.ucRefs τ sig) (W2 m c) ∗ RH c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) admH (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admH (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: entered from every unscoped buffer at `W3`, left at `W4`.  Its arrays are
    split out of the unscoped buffers and put back at their exit contents; the generator register goes into the bare
    invariant and comes out again; nothing is owed; the kernel has no semaphore of its own. -/
def reg1 : Pipeline.RegionSeg (pcfgs (F := F)) admH (pdats m) () defs₀ 𝒱H LH lvH 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ LH lvH 1 fun _ _ => rfl
  pre c := iprop(StableHlo.held (c : Thread nD τ) (Pipeline.ucRefs τ sig) (W3 m c) ∗ RH c)
  post c := iprop(StableHlo.held (c : Thread nD τ) (Pipeline.ucRefs τ sig) (W4 m c) ∗ RH c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) admH (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) admH (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state: entered from every unscoped buffer at `W5`, left at `W6`.  Its arrays are
    split out of the unscoped buffers and put back at their exit contents; the generator register goes into the bare
    invariant and comes out again; nothing is owed; the kernel has no semaphore of its own. -/
def reg2 : Pipeline.RegionSeg (pcfgs (F := F)) admH (pdats m) () defs₀ 𝒱H LH lvH 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ LH lvH 2 fun _ _ => rfl
  pre c := iprop(StableHlo.held (c : Thread nD τ) (Pipeline.ucRefs τ sig) (W5 m c) ∗ RH c)
  post c := iprop(StableHlo.held (c : Thread nD τ) (Pipeline.ucRefs τ sig) (W6 m c) ∗ RH c)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) admH (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admH (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The last thread state without the `owes`. -/
abbrev TnH (c : Dev nD) : sProp 𝕄 := iprop(StableHlo.held (c : Thread nD τ) (Pipeline.ucRefs τ sig) (W7 m c) ∗ ∃ r, prngReg c r)

/-- The core owing nothing is the attention launch's `owes` before its first point (its proof data owes nothing and bounds no
    recorded pair), -/
theorem owes_in3 (c : Dev nD) :
    (iprop(∃ W, owes (c : Thread nD τ) (0 : CellTallies nD τ sig Unit) W) : sProp 𝕄) ⊢ (pdats m 3 c).owesAt () 0 := by
  show _ ⊢ (dat3 (V6 m) c).owesAt () 0
  unfold Pipeline.Dat.owesAt Pipeline.owesWithin
  rw [owed3 (V6 m) c 0]
  iintro ⟨%W, HO⟩; iexists W; isplitr
  · ipureintro; intro x _; exact Or.inl (by rw [recorded3 (V6 m) c 0]; trivial)
  iexact HO

/-- and after its last point the launch's `owes` is the core owing nothing. -/
theorem owes_out3 (c : Dev nD) :
    (pdats m 3 c).owesAt () (Fin.last (Pipeline.pin (pcfgs (F := F)) admH 3).N)
      ⊢ (iprop(∃ W, owes (c : Thread nD τ) (0 : CellTallies nD τ sig Unit) W) : sProp 𝕄) := by
  show (dat3 (V6 m) c).owesAt () (Fin.last cfg3.N) ⊢ _
  unfold Pipeline.Dat.owesAt Pipeline.owesWithin
  rw [owed3 (V6 m) c (Fin.last cfg3.N)]
  iintro ⟨%W, -, HO⟩; iexists W; iexact HO

set_option backward.isDefEq.respectTransparency.types false in
/-- The attention launch over the thread state: entered from `W6`, left at `W7`.  Its invariant carries the scratch
    accumulator from point to point; at the launch's ends it is the bare one. -/
def reg3 : Pipeline.RegionSeg (pcfgs (F := F)) admH (pdats m) () defs₀ 𝒱H LH lvH 3 where
  win := launch3.win.to₀
  block_pos := launch3.block_pos
  stage_whole := launch3.stage_whole
  K := PEmpty
  osem k := k.elim
  ho := Pipeline.OwnSemFacts.none _
  hbody c := (body_obligation3 (V6 m) c).loose
  hwaits := Pipeline.hwaits_of_owed_zero _ _ _ _ LH lvH 3 fun c t => owed3 (V6 m) c t
  pre c := iprop(StableHlo.held (c : Thread nD τ) (Pipeline.ucRefs τ sig) (W6 m c) ∗ RH c)
  post c := iprop(TnH m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V6 m c)
  hentry c := by
    rw [Pipeline.ownSems0_none]
    have hsplit := Pipeline.arrays_of_unscopedBufs (p := 3) (pcfgs (F := F)) admH (pdats m) launch3.win launch3.arr_whole c
      ((pdats m 3 c).share_full (q3 (V6 m) c)) (V6 m c) (A_eq3 (V6 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (owes_in3 m c); iexact HO
    isplitl [Hp]; · iexact Hp
    iexact Hrest
  hin c := by
    refine (?_ : _ ⊢ (Pipeline.ΦA spec3 c : sProp 𝕄)).trans (hin3 (V6 m) c)
    unfold Pipeline.ΦA
    iintro ⟨Hp, -, Hr⟩
    isplitl [Hr]; · iexact Hr
    iexact Hp
  hout c := by
    refine (hout3 (V6 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admH (Ix := Unit) (Name := ℕ) (U := UR sig nD τ) (Lvl := ℕ)
      launch3.win launch3.arr_whole c (pdats m) ((pdats m 3 c).share_full (q3 (V6 m) c))
      (V6 m c) (V7 m c) ((pdats m 3 c).arrAt · cfg3.N) (hF3 m c) (hrest3 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    iapply (owes_out3 m c); iexact HO

/-! ## @main as segments, and the run -/

abbrev segsH : List (Pipeline.Seg (pcfgs (F := F)) admH (pdats m) () defs₀ 𝒱H LH lvH) :=
  [ .host (hseg hostOps0 hostOps0_sub hostOps0_freshH (W0 m)),
    .region (reg0 m),
    .host (hseg hostOps1 hostOps1_sub hostOps1_freshH (W2 m)),
    .region (reg1 m),
    .host (hseg hostOps2 hostOps2_sub hostOps2_freshH (W4 m)),
    .region (reg2 m),
    .region (reg3 m) ]

theorem main_runH (c : Dev nD) : main (F := F) c = Pipeline.Seg.run (segsH m) := (main_chain c).trans (by chain_rfl)

theorem mem_ucH (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN.  From any memory `m` with every counter at zero, every weakly fair execution of @main terminates,
    nothing faulting, and every final memory holds each unscoped buffer of each core at the last boundary's
    contents `W7`. -/
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W7 m c b) :=
  Pipeline.θ_run_regions_kit (pcfgs (F := F)) admH (pdats m) () cellOf_inj emb₁ defs₀ 𝒱H LH lvH m ρ main (segsH m)
    (fun c Q => by rw [main_runH m c])
    (by simp only [segsH, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ RH c)) (Tₙ := TnH m)
    (hch := ⟨fun _ => .rfl, fun _ => .rfl, fun _ => .rfl, fun _ => .rfl, fun _ => .rfl, fun _ => .rfl, fun _ => .rfl, fun _ => .rfl⟩)
    (hinit := by
      refine Pipeline.initEach LH lvH fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h => h)

end Cert.KernelIdeal.Hand

end
-- ==== Proof.KI.Frame.lean ====
/-
  What each item of @main leaves alone.  A launch writes back only its result array; an input array it stages is
  handed back as it was found, and the other buffers bypass the launch.  A bias reshape writes its 1×1024 row only.
  So the eight argument arrays reach the end as launched: the frame, for any float instance.
-/
import proofs.«104826_j18837726560765_1_alg».proof.Proof.Gen.KernelIdeal.Launch
import proofs.«104826_j18837726560765_1_alg».proof.Proof.Gen.KernelIdeal.Skeleton
import proofs.«104826_j18837726560765_1_alg».proof.Proof.Gen.KernelIdeal.Points
import proofs.«104826_j18837726560765_1_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem hostOps0_writesH : (hostOps0 : List (HloOp τ sig (Elt F))).Forall fun op =>
    op.writes ⊆ (([main_v0] : List (Ref sig .tc)).map (Proc.devRef (τ := τ) .tc)).toFinset := by
  simp only [List.Forall]; exact (by simp only [StableHlo.reshape_writes, Finset.singleton_subset_iff, List.mem_toFinset]; exact List.mem_map_of_mem (by decide))
/-- The reshape writes `main_v0` and nothing else. -/
theorem W1_keep (c : Dev nD) (b : Ref sig .tc) (hb : b ≠ main_v0) :
    W1 m c (Proc.devRef .tc b) = W0 m c (Proc.devRef .tc b) :=
  StableHlo.after_of_writes_sub hostOps0 _ hostOps0_writesH (by simpa using hb)

/-- Launch 0 changes no buffer but its result array `main_v1`: an input array it stages is handed back as entered, and a
    buffer no window stages is not touched. -/
theorem W2_keep (c : Dev nD) (b : Ref sig .tc) (hb : b ≠ main_v1) :
    W2 m c (Proc.devRef .tc b) = W1 m c (Proc.devRef .tc b) := by
  by_cases h : ∃ w, Pipeline.arrRef spec0 w = b
  · obtain ⟨w, rfl⟩ := h
    have hin : (cfg0.win w).isOut = false := by
      match w with
      | ⟨0, _⟩ => rfl
      | ⟨1, _⟩ => rfl
      | ⟨2, _⟩ => rfl
      | ⟨3, _⟩ => exact absurd rfl hb
    exact (W2_arr m c w).trans (((dat0 (V1 m) c).arrAt_in w hin _).trans (A_eq0 (V1 m) c w))
  · exact W2_of_ne m c b fun w e => h ⟨w, e⟩

theorem hostOps1_writesH : (hostOps1 : List (HloOp τ sig (Elt F))).Forall fun op =>
    op.writes ⊆ (([main_v2] : List (Ref sig .tc)).map (Proc.devRef (τ := τ) .tc)).toFinset := by
  simp only [List.Forall]; exact (by simp only [StableHlo.reshape_writes, Finset.singleton_subset_iff, List.mem_toFinset]; exact List.mem_map_of_mem (by decide))
/-- The reshape writes `main_v2` and nothing else. -/
theorem W3_keep (c : Dev nD) (b : Ref sig .tc) (hb : b ≠ main_v2) :
    W3 m c (Proc.devRef .tc b) = W2 m c (Proc.devRef .tc b) :=
  StableHlo.after_of_writes_sub hostOps1 _ hostOps1_writesH (by simpa using hb)

/-- Launch 1 changes no buffer but its result array `main_v3`: an input array it stages is handed back as entered, and a
    buffer no window stages is not touched. -/
theorem W4_keep (c : Dev nD) (b : Ref sig .tc) (hb : b ≠ main_v3) :
    W4 m c (Proc.devRef .tc b) = W3 m c (Proc.devRef .tc b) := by
  by_cases h : ∃ w, Pipeline.arrRef spec1 w = b
  · obtain ⟨w, rfl⟩ := h
    have hin : (cfg1.win w).isOut = false := by
      match w with
      | ⟨0, _⟩ => rfl
      | ⟨1, _⟩ => rfl
      | ⟨2, _⟩ => rfl
      | ⟨3, _⟩ => exact absurd rfl hb
    exact (W4_arr m c w).trans (((dat1 (V3 m) c).arrAt_in w hin _).trans (A_eq1 (V3 m) c w))
  · exact W4_of_ne m c b fun w e => h ⟨w, e⟩

theorem hostOps2_writesH : (hostOps2 : List (HloOp τ sig (Elt F))).Forall fun op =>
    op.writes ⊆ (([main_v4] : List (Ref sig .tc)).map (Proc.devRef (τ := τ) .tc)).toFinset := by
  simp only [List.Forall]; exact (by simp only [StableHlo.reshape_writes, Finset.singleton_subset_iff, List.mem_toFinset]; exact List.mem_map_of_mem (by decide))
/-- The reshape writes `main_v4` and nothing else. -/
theorem W5_keep (c : Dev nD) (b : Ref sig .tc) (hb : b ≠ main_v4) :
    W5 m c (Proc.devRef .tc b) = W4 m c (Proc.devRef .tc b) :=
  StableHlo.after_of_writes_sub hostOps2 _ hostOps2_writesH (by simpa using hb)

/-- Launch 2 changes no buffer but its result array `main_v5`: an input array it stages is handed back as entered, and a
    buffer no window stages is not touched. -/
theorem W6_keep (c : Dev nD) (b : Ref sig .tc) (hb : b ≠ main_v5) :
    W6 m c (Proc.devRef .tc b) = W5 m c (Proc.devRef .tc b) := by
  by_cases h : ∃ w, Pipeline.arrRef spec2 w = b
  · obtain ⟨w, rfl⟩ := h
    have hin : (cfg2.win w).isOut = false := by
      match w with
      | ⟨0, _⟩ => rfl
      | ⟨1, _⟩ => rfl
      | ⟨2, _⟩ => rfl
      | ⟨3, _⟩ => exact absurd rfl hb
    exact (W6_arr m c w).trans (((dat2 (V5 m) c).arrAt_in w hin _).trans (A_eq2 (V5 m) c w))
  · exact W6_of_ne m c b fun w e => h ⟨w, e⟩

/-- Launch 3 changes no buffer but its result array `main_v6`: an input array it stages is handed back as entered, and a
    buffer no window stages is not touched. -/
theorem W7_keep (c : Dev nD) (b : Ref sig .tc) (hb : b ≠ main_v6) :
    W7 m c (Proc.devRef .tc b) = W6 m c (Proc.devRef .tc b) := by
  by_cases h : ∃ w, Pipeline.arrRef spec3 w = b
  · obtain ⟨w, rfl⟩ := h
    have hin : (cfg3.win w).isOut = false := by
      match w with
      | ⟨0, _⟩ => rfl
      | ⟨1, _⟩ => rfl
      | ⟨2, _⟩ => rfl
      | ⟨3, _⟩ => exact absurd rfl hb
    exact (W7_arr m c w).trans (((dat3 (V6 m) c).arrAt_in w hin _).trans (A_eq3 (V6 m) c w))
  · exact W7_of_ne m c b fun w e => h ⟨w, e⟩

/-- A buffer that is none of the seven intermediate or result arrays ends as launched. -/
theorem W7_untouched (c : Dev nD) (b : Ref sig .tc) (h0 : b ≠ main_v0) (h1 : b ≠ main_v1) (h2 : b ≠ main_v2) (h3 : b ≠ main_v3)
    (h4 : b ≠ main_v4) (h5 : b ≠ main_v5) (h6 : b ≠ main_v6) :
    W7 m c (Proc.devRef .tc b) = m ((c : Thread nD τ).loc b) :=
  (W7_keep m c b h6).trans <| (W6_keep m c b h5).trans <| (W5_keep m c b h4).trans <| (W4_keep m c b h3).trans <|
    (W3_keep m c b h2).trans <| (W2_keep m c b h1).trans <| (W1_keep m c b h0).trans rfl

/-- THE FRAME, with the result named: every weakly fair execution of @main terminates, nothing faulting; the result
    array ends at the last boundary's contents and the eight argument arrays end as launched. -/
theorem run_named (ρ : Dev nD → PrngReg) :
    θ_run defs (onTc (τ := τ) (main (F := F))) ⟨m, fun _ => 0, ρ⟩ (fun r => ∀ c : Dev nD,
      r.2.mem ((c.tc : Thread nD τ).loc main_v6) = W7 m c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨h c _ (mem_ucH main_v6 (by decide)),
     (h c _ (mem_ucH main_arg0 (by decide))).trans (W7_untouched m c main_arg0 (by decide) (by decide) (by decide) (by decide) (by decide) (by decide) (by decide)),
     (h c _ (mem_ucH main_arg1 (by decide))).trans (W7_untouched m c main_arg1 (by decide) (by decide) (by decide) (by decide) (by decide) (by decide) (by decide)),
     (h c _ (mem_ucH main_arg2 (by decide))).trans (W7_untouched m c main_arg2 (by decide) (by decide) (by decide) (by decide) (by decide) (by decide) (by decide)),
     (h c _ (mem_ucH main_arg3 (by decide))).trans (W7_untouched m c main_arg3 (by decide) (by decide) (by decide) (by decide) (by decide) (by decide) (by decide)),
     (h c _ (mem_ucH main_arg4 (by decide))).trans (W7_untouched m c main_arg4 (by decide) (by decide) (by decide) (by decide) (by decide) (by decide) (by decide)),
     (h c _ (mem_ucH main_arg5 (by decide))).trans (W7_untouched m c main_arg5 (by decide) (by decide) (by decide) (by decide) (by decide) (by decide) (by decide)),
     (h c _ (mem_ucH main_arg6 (by decide))).trans (W7_untouched m c main_arg6 (by decide) (by decide) (by decide) (by decide) (by decide) (by decide) (by decide)),
     (h c _ (mem_ucH main_arg7 (by decide))).trans (W7_untouched m c main_arg7 (by decide) (by decide) (by decide) (by decide) (by decide) (by decide) (by decide))⟩)
    (run_all m ρ)

/-- The frame claim's post. -/
theorem frameH (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => (h c).2) (run_named m ρ)

end Cert.KernelIdeal.Hand

end
-- ==== Proof.Spec.lean ====
/-
  What both programs compute, as one function of the eight argument arrays, over the extended reals.

  A projection is Y(r,c) = Σ_k X(r,k)·W(k,c) + b(c).  With Q, K, V the projections of q, x, x the result is
      out(r,c) = Σ_j σ( (Σ_d Q(r,d)·K(j,d)) · s ) · V(j,c),       σ(z) = 1 / (1 + e^(−z)),
  a gate with no normalisation over j, so the sum over the 4096 keys may be taken in any grouping.  The factor s is
  written as the 32-bit word the kernel multiplies by, 2⁻⁵; the reference reaches the same number as 1/√1024.
-/
import Idealize.ShloMosaic.PureOps.Ideal
import Idealize.ShloMosaic.Lib.ValueIdx

noncomputable section

namespace Cert.Spec

open Idealize.ShloMosaic Idealize.ShloMosaic.ValueIdx

/-- The literal shapes of the problem. -/
abbrev SLong : Shape := ⟨2, ![4096, 1024]⟩
abbrev SSq : Shape := ⟨2, ![1024, 1024]⟩
abbrev SVec : Shape := ⟨1, ![1024]⟩
abbrev SRow : Shape := ⟨2, ![1, 1024]⟩

/-- The scale 1/√1024 = 2⁻⁵ as the kernel writes it. -/
def scale : EReal := Ideal.ofBits .f32 0x3D000000#32

/-- Entry (r,c) of X·W + b, the bias given as a vector. -/
def projAt (X : SLong.Idx → EReal) (W : SSq.Idx → EReal) (b : SVec.Idx → EReal) (r : Fin 4096) (c : Fin 1024) : EReal :=
  (∑ k : Fin 1024, X (ix2 r k) * W (ix2 k c)) + b (ix1 c)

/-- The projection as an array. -/
def proj (X : SLong.Idx → EReal) (W : SSq.Idx → EReal) (b : SVec.Idx → EReal) : SLong.Idx → EReal :=
  fun i => projAt X W b (i 0) (i 1)

/-- Entry (r,c) of X·W + b, the bias given as the 1×1024 row the kernel's launch is handed. -/
def projRowAt (X : SLong.Idx → EReal) (W : SSq.Idx → EReal) (b : SRow.Idx → EReal) (r : Fin 4096) (c : Fin 1024) : EReal :=
  (∑ k : Fin 1024, X (ix2 r k) * W (ix2 k c)) + b (ix2 (0 : Fin 1) c)

def projRow (X : SLong.Idx → EReal) (W : SSq.Idx → EReal) (b : SRow.Idx → EReal) : SLong.Idx → EReal :=
  fun i => projRowAt X W b (i 0) (i 1)

/-- The gate between query row r and key row j. -/
def gateAt (Q K : SLong.Idx → EReal) (r j : Fin 4096) : EReal :=
  Ideal.logistic ((∑ d : Fin 1024, Q (ix2 r d) * K (ix2 j d)) * scale)

/-- Entry (r,c) of the gated sum over all keys. -/
def attnAt (Q K Vv : SLong.Idx → EReal) (r : Fin 4096) (c : Fin 1024) : EReal :=
  ∑ j : Fin 4096, gateAt Q K r j * Vv (ix2 j c)

def attn (Q K Vv : SLong.Idx → EReal) : SLong.Idx → EReal :=
  fun i => attnAt Q K Vv (i 0) (i 1)

/-- The whole result from the eight arguments. -/
def result (q x : SLong.Idx → EReal) (Wq : SSq.Idx → EReal) (bq : SVec.Idx → EReal) (Wk : SSq.Idx → EReal) (bk : SVec.Idx → EReal)
    (Wv : SSq.Idx → EReal) (bv : SVec.Idx → EReal) : SLong.Idx → EReal :=
  attn (proj q Wq bq) (proj x Wk bk) (proj x Wv bv)

end Cert.Spec

end
-- ==== Proof.LibDense.lean ====
/-
  One dense layer of a multilayer perceptron, read one row at a time over the extended reals.

  A layer maps a row  v  of K numbers to the row  y_c = (Σ_k v_k · W_{k,c}) + b_c  of C numbers (`affine`), optionally
  followed by the rectifier  max(·, 0)  (`relu`). A product of an [R, K] array with a [K, C] array whose dimension
  numbers contract the left operand's axis 1 with the right operand's axis 0 (no batch axes) is, at the entry (r, c),
  the sum over k of  lhs(r, k) · rhs(k, c) : this holds for the matrix unit's product into a zero accumulator and for the
  host's general product alike (`matmul_zero_plain_apply`, `dotGeneral_plain_apply`), because both are the same sum over
  the one-axis contraction index, re-indexed here by its one coordinate (`contr_sum`). So a whole layer as either
  program spells it — the product, the bias row added to every row, the maximum with zero — is `relu (affine W b row)`
  at every entry (`kernel_affine_apply` then `kernel_relu_apply`; `host_affine_apply` then `host_relu_apply`), whatever the number of rows: a layer acts on each row by
  itself.
-/
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Dense

open Idealize.ShloMosaic Idealize.ShloMosaic.ValueIdx

/-- The affine map of one row:  y_c = (Σ_k v_k · W_{k,c}) + b_c . -/
def affine {K C : ℕ} (W : FVec Ideal ⟨2, ![K, C]⟩ .f32) (b : FVec Ideal ⟨1, ![C]⟩ .f32) (v : Fin K → EReal) :
    Fin C → EReal :=
  fun c => (∑ k : Fin K, v k * W (ix2 k c)) + b (ix1 c)

/-- The rectifier on a row:  max(y_c, 0) . -/
def relu {C : ℕ} (v : Fin C → EReal) : Fin C → EReal := fun c => max (v c) 0

/-- A coordinate of an index does not depend on how its axis number is written. -/
private theorem idx_val_congr {s : Shape} (j : s.Idx) (p q : Nat) (hp : p < s.rank) (hq : q < s.rank) (h : p = q) :
    (j ⟨p, hp⟩).val = (j ⟨q, hq⟩).val := by subst h; rfl

/-- With no batch axes and the left operand's axis 0 its only free axis, the left index's row is the result's row. -/
private theorem lhsIdx_row {R K C : ℕ} (d : DotDims ⟨2, ![R, K]⟩ ⟨2, ![K, C]⟩ ⟨2, ![R, C]⟩)
    (h3 : d.lhsNonContracting = [0]) (h5 : d.lhsBatch = [])
    (j : (⟨2, ![R, C]⟩ : Shape).Idx) (k : d.contr.Idx) : (d.lhsIdx j k 0).val = (j 0).val := by
  have hb : (0 : Fin 2) ∉ d.lhsBatch := by rw [h5]; exact List.not_mem_nil
  have hn : (0 : Fin 2) ∈ d.lhsNonContracting := by rw [h3]; exact List.mem_singleton.mpr rfl
  unfold DotDims.lhsIdx
  rw [dif_neg hb, dif_pos hn]
  simp only [Fin.val_cast]
  exact idx_val_congr j _ _ _ _ (by simp [h3, h5])

/-- With no batch axes, one free axis on the left and the right operand's axis 1 its only free axis, the right index's
    column is the result's column. -/
private theorem rhsIdx_col {R K C : ℕ} (d : DotDims ⟨2, ![R, K]⟩ ⟨2, ![K, C]⟩ ⟨2, ![R, C]⟩)
    (h3 : d.lhsNonContracting = [0]) (h4 : d.rhsNonContracting = [1]) (h5 : d.lhsBatch = []) (h6 : d.rhsBatch = [])
    (j : (⟨2, ![R, C]⟩ : Shape).Idx) (k : d.contr.Idx) : (d.rhsIdx j k 1).val = (j 1).val := by
  have hb : (1 : Fin 2) ∉ d.rhsBatch := by rw [h6]; exact List.not_mem_nil
  have hn : (1 : Fin 2) ∈ d.rhsNonContracting := by rw [h4]; exact List.mem_singleton.mpr rfl
  unfold DotDims.rhsIdx
  rw [dif_neg hb, dif_pos hn]
  simp only [Fin.val_cast]
  exact idx_val_congr j _ _ _ _ (by simp [h3, h4, h5])

/-- The sum over a one-axis contraction index of a plain [R,K] × [K,C] product, as the sum over k of
    lhs(r, k) · rhs(k, c). -/
theorem contr_sum {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (lhs : (⟨2, ![R, K]⟩ : Shape).Idx → EReal) (rhs : (⟨2, ![K, C]⟩ : Shape).Idx → EReal) (r : Fin R) (c : Fin C) :
    ∑ k : d.contr.Idx, lhs (d.lhsIdx (ix2 r c) k) * rhs (d.rhsIdx (ix2 r c) k)
      = ∑ k : Fin K, lhs (ix2 r k) * rhs (ix2 k c) := by
  -- the contraction index has one axis, of extent K
  have hr : d.contr.rank = 1 := by rw [d.rank_contr, h1]; rfl
  have hs : d.contr.size ⟨0, by omega⟩ = K := by
    have h := d.size_contr 0 (by rw [h1]; exact Nat.one_pos)
    rw [h]
    simp [h1]
  -- re-index the sum by that axis's one coordinate
  rw [← Equiv.sum_comp (contrEquiv1 d K hr hs).symm]
  refine Finset.sum_congr rfl fun k _ => ?_
  have hk : (((contrEquiv1 d K hr hs).symm k) ⟨0, by omega⟩ : ℕ) = k.val := contrEquiv1_symm_val d K hr hs k
  -- the left operand is read at (r, k): its row from the result, its column from the contraction
  have el : d.lhsIdx (ix2 r c) ((contrEquiv1 d K hr hs).symm k) = ix2 r k := by
    funext a
    match a with
    | ⟨0, _⟩ => exact Fin.ext (lhsIdx_row d h3 h5 (ix2 r c) _)
    | ⟨1, _⟩ => exact Fin.ext ((d.lhsIdx_val_of_single h1 (ix2 r c) _).trans hk)
  -- the right operand is read at (k, c): its row from the contraction, its column from the result
  have er : d.rhsIdx (ix2 r c) ((contrEquiv1 d K hr hs).symm k) = ix2 k c := by
    funext a
    match a with
    | ⟨0, _⟩ => exact Fin.ext ((d.rhsIdx_val_of_single h2 (ix2 r c) _).trans hk)
    | ⟨1, _⟩ => exact Fin.ext (rhsIdx_col d h3 h4 h5 h6 (ix2 r c) _)
  rw [el, er]

/-- The matrix unit's product into a zero accumulator, at (r, c). -/
theorem matmul_zero_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    matmul d prec lhs rhs (constant ⟨2, ![R, C]⟩ .f32 0x00000000#32) (ix2 r c)
      = ∑ k : Fin K, lhs (ix2 r k) * rhs (ix2 k c) := by
  -- the product into zeros is the sum over the contraction index, which is the sum over k
  show FloatOps.matmul d prec lhs rhs (constant ⟨2, ![R, C]⟩ .f32 0x00000000#32) (ix2 r c) = _
  rw [Ideal.matmul_constant_zero_apply]
  exact contr_sum d h1 h2 h3 h4 h5 h6 lhs rhs r c

/-- The host's general product, at (r, c). -/
theorem dotGeneral_plain_apply {R K C : ℕ} {φ₁ φ₂ : FTy} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (lhs : FVec Ideal ⟨2, ![R, K]⟩ φ₁) (rhs : FVec Ideal ⟨2, ![K, C]⟩ φ₂)
    (r : Fin R) (c : Fin C) :
    Host.dotGeneral d prec lhs rhs (ix2 r c) = ∑ k : Fin K, lhs (ix2 r k) * rhs (ix2 k c) := by
  -- the general product is the same sum over the contraction index
  simp only [Host.dotGeneral]
  rw [Ideal.dotGeneral_apply]
  exact contr_sum d h1 h2 h3 h4 h5 h6 lhs rhs r c

/-- A [C] row viewed as a [1, C] array and stretched over R rows reads, at (r, c), the row's entry c. -/
private theorem bias_keepdims_apply {R C : ℕ} {α : Type}
    (hsc : (⟨1, ![C]⟩ : Shape).ShapeCasts ⟨2, ![1, C]⟩) (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) := by
  -- the stretch reads the [1, C] array at (0, c); when C = 1 the column c is itself 0
  refine (broadcastTo_apply _ hbc (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the added unit axis reads the row at its trailing coordinate
  · refine (shapeCast_addUnit_apply ![C] b hsc (ix2 (0 : Fin 1) c)).trans ?_
    exact congrArg b (funext fun a => match a with | ⟨0, _⟩ => rfl)

/-- A layer before its rectifier as the kernel spells it — both operands narrowed to bf16 (the identity on the
    extended reals), the product into zeros, the bias as a [1, C] row stretched over the R rows and added — at (r, c). -/
theorem kernel_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hlt : FTy.bits .bf16 < FTy.bits .f32)
    (hsc : (⟨1, ![C]⟩ : Shape).ShapeCasts ⟨2, ![1, C]⟩) (hbc : (⟨2, ![1, C]⟩ : Shape).Broadcasts ⟨2, ![R, C]⟩)
    (X : FVec Ideal ⟨2, ![R, K]⟩ .f32) (W : FVec Ideal ⟨2, ![K, C]⟩ .f32) (b : FVec Ideal ⟨1, ![C]⟩ .f32)
    (r : Fin R) (c : Fin C) :
    addf (matmul d none (truncf .bf16 X hlt) (truncf .bf16 W hlt) (constant ⟨2, ![R, C]⟩ .f32 0x00000000#32))
        (broadcastTo ⟨2, ![R, C]⟩ (shapeCast ⟨2, ![1, C]⟩ b hsc) hbc) (ix2 r c)
      = affine W b (fun k => X (ix2 r k)) c := by
  -- the sum at (r, c) plus the bias entry c; narrowing to bf16 is the identity on the extended reals
  rw [addf_apply, matmul_zero_plain_apply d h1 h2 h3 h4 h5 h6, bias_keepdims_apply hsc hbc b r c]
  rfl

/-- The kernel's rectifier — the maximum with a splat of the zero word — at an index. -/
theorem kernel_relu_apply {s : Shape} (v : FVec Ideal s .f32) (i : s.Idx) :
    maximumf v (broadcast s (Scalar.ofBits (F := Ideal) .f32 0x00000000#32)) i = max (v i) 0 := by
  -- the splat reads the zero word everywhere, and the zero word is the number 0
  rw [maximumf_apply, broadcast_apply]
  show max (v i) (Ideal.ofBits .f32 0x00000000#32) = _
  rw [Ideal.ofBits_zero_f32]

/-- A [C] row laid out as a [1, C] array on its axis 1 and then over R rows on both axes reads, at (r, c), the row's
    entry c. -/
private theorem bias_inDim_apply {R C : ℕ} {α : Type}
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) := by
  -- the outer layout reads the [1, C] array at (0, c); when C = 1 the column c is itself 0
  refine (broadcastInDim_apply ![0, 1] hb2 _ (ix2 r c) (ix2 (0 : Fin 1) c) fun a => ?_).trans ?_
  · match a with
    | ⟨0, _⟩ => exact (if_pos rfl).symm
    | ⟨1, _⟩ =>
      show c.val = if C = 1 then 0 else c.val
      split
      · have := c.isLt; omega
      · rfl
  -- the inner layout reads the row at the [1, C] array's coordinate on axis 1
  · refine broadcastInDim_apply ![1] hb1 b (ix2 (0 : Fin 1) c) (ix1 c) fun a => ?_
    match a with
    | ⟨0, _⟩ =>
      show c.val = if C = 1 then 0 else c.val
      split
      · have := c.isLt; omega
      · rfl

/-- A layer before its rectifier as the host spells it — the general product, the bias laid out as a [1, C] row and
    then over the R rows, added — at (r, c). -/
theorem host_affine_apply {R K C : ℕ} (d : DotDims ⟨2, ![R, K]⟩ ⟨2, ![K, C]⟩ ⟨2, ![R, C]⟩)
    (h1 : d.lhsContracting = [1]) (h2 : d.rhsContracting = [0]) (h3 : d.lhsNonContracting = [0])
    (h4 : d.rhsNonContracting = [1]) (h5 : d.lhsBatch = []) (h6 : d.rhsBatch = [])
    (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (X : FVec Ideal ⟨2, ![R, K]⟩ .f32) (W : FVec Ideal ⟨2, ![K, C]⟩ .f32) (b : FVec Ideal ⟨1, ![C]⟩ .f32)
    (r : Fin R) (c : Fin C) :
    addf (Host.dotGeneral d none X W)
        (broadcastInDim ⟨2, ![R, C]⟩ ![0, 1] hb2 (broadcastInDim ⟨2, ![1, C]⟩ ![1] hb1 b)) (ix2 r c)
      = affine W b (fun k => X (ix2 r k)) c := by
  -- the sum at (r, c) plus the bias entry c
  rw [addf_apply, dotGeneral_plain_apply d h1 h2 h3 h4 h5 h6, bias_inDim_apply hb1 hb2 b r c]
  rfl

/-- The host's rectifier — the maximum with the zero scalar laid out over the array — at an index. -/
theorem host_relu_apply {s : Shape} (hb0 : (⟨0, ![]⟩ : Shape).BroadcastsInDim s (![] : Fin 0 → Fin s.rank))
    (v : FVec Ideal s .f32) (i : s.Idx) :
    maximumf v (broadcastInDim s ![] hb0 (constant (F := Ideal) ⟨0, ![]⟩ .f32 0x00000000#32)) i = max (v i) 0 := by
  -- the scalar laid out over the array reads its one entry everywhere: the zero word, which is the number 0
  rw [maximumf_apply]
  have e : broadcastInDim s ![] hb0 (constant (F := Ideal) ⟨0, ![]⟩ .f32 0x00000000#32) i
      = constant (F := Ideal) ⟨0, ![]⟩ .f32 0x00000000#32 ix0 :=
    broadcastInDim_apply ![] hb0 _ i ix0 fun a => a.elim0
  rw [e, constant_apply, Ideal.ofBits_zero_f32]

end Cert.Dense

end
-- ==== Proof.LibBiasRow.lean ====
/-
  A bias row added to every row of a matrix, read at an entry.

  A row  b  of C numbers is added to each of the R rows of an [R, C] array by first giving it a leading axis of
  extent 1 and then repeating that one row R times. A vector program spells the two steps as a shape cast
  [C] → [1, C] followed by a broadcast [1, C] → [R, C]; a host program spells them as two layouts in dimensions,
  [C] → [1, C] on axis 1 and [1, C] → [R, C] on axes (0, 1). Either way the entry (r, c) of the result is  b_c :
  the repetition reads the single row at (0, c) (`stretch_row_apply`, `layout_rows_apply`), and the single row at
  (0, c) is the entry c of  b  (`cast_row_apply`, `layout_row_apply`). The two whole spellings at an entry are
  `cast_stretch_apply` and `layout_layout_apply`. All of it is generic in R, C and the element type; when C = 1
  the column c is itself 0, which is the only case distinction.
-/
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

variable {R C : ℕ} {α : Type}

/-- A column number below C is 0 when C = 1, and is itself otherwise. -/
theorem col_val (c : Fin C) : c.val = if C = 1 then 0 else c.val := by
  split
  · have := c.isLt; omega
  · rfl

/-- One row repeated R times by a vector broadcast reads, at (r, c), the row's entry (0, c). -/
theorem stretch_row_apply (hbc : (⟨2, ![1, C]⟩ : Shape).Broadcasts ⟨2, ![R, C]⟩)
    (v : (⟨2, ![1, C]⟩ : Shape).Idx → α) (r : Fin R) (c : Fin C) :
    broadcastTo ⟨2, ![R, C]⟩ v hbc (ix2 r c) = v (ix2 (0 : Fin 1) c) :=
  broadcastTo_apply v hbc (ix2 r c) (ix2 (0 : Fin 1) c) fun a =>
    match a with
    | ⟨0, _⟩ => (if_pos rfl).symm
    | ⟨1, _⟩ => col_val c

/-- A row given a leading unit axis by a shape cast reads, at (0, c), its entry c. -/
theorem cast_row_apply (hsc : (⟨1, ![C]⟩ : Shape).ShapeCasts ⟨2, ![1, C]⟩)
    (b : (⟨1, ![C]⟩ : Shape).Idx → α) (c : Fin C) :
    shapeCast ⟨2, ![1, C]⟩ b hsc (ix2 (0 : Fin 1) c) = b (ix1 c) :=
  (shapeCast_addUnit_apply ![C] b hsc (ix2 (0 : Fin 1) c)).trans
    (congrArg b (funext fun a => match a with | ⟨0, _⟩ => rfl))

/-- The vector spelling whole: cast to [1, C], then repeated over R rows, at (r, c). -/
theorem cast_stretch_apply (hsc : (⟨1, ![C]⟩ : Shape).ShapeCasts ⟨2, ![1, C]⟩)
    (hbc : (⟨2, ![1, C]⟩ : Shape).Broadcasts ⟨2, ![R, C]⟩)
    (b : (⟨1, ![C]⟩ : Shape).Idx → α) (r : Fin R) (c : Fin C) :
    broadcastTo ⟨2, ![R, C]⟩ (shapeCast ⟨2, ![1, C]⟩ b hsc) hbc (ix2 r c) = b (ix1 c) :=
  (stretch_row_apply hbc _ r c).trans (cast_row_apply hsc b c)

/-- One row laid out over R rows on axes (0, 1) reads, at (r, c), the row's entry (0, c). -/
theorem layout_rows_apply (hb2 : (⟨2, ![1, C]⟩ : Shape).BroadcastsInDim ⟨2, ![R, C]⟩ (![0, 1] : Fin 2 → Fin 2))
    (v : (⟨2, ![1, C]⟩ : Shape).Idx → α) (r : Fin R) (c : Fin C) :
    broadcastInDim ⟨2, ![R, C]⟩ ![0, 1] hb2 v (ix2 r c) = v (ix2 (0 : Fin 1) c) :=
by
  refine broadcastInDim_apply ![0, 1] hb2 v (ix2 r c) (ix2 (0 : Fin 1) c) fun a => ?_
  match a with
  | ⟨0, _⟩ => exact (if_pos rfl).symm
  | ⟨1, _⟩ => show c.val = if C = 1 then 0 else c.val; exact col_val c

/-- A row laid out as a [1, C] array on axis 1 reads, at (0, c), its entry c. -/
theorem layout_row_apply (hb1 : (⟨1, ![C]⟩ : Shape).BroadcastsInDim ⟨2, ![1, C]⟩ (![1] : Fin 1 → Fin 2))
    (b : (⟨1, ![C]⟩ : Shape).Idx → α) (c : Fin C) :
    broadcastInDim ⟨2, ![1, C]⟩ ![1] hb1 b (ix2 (0 : Fin 1) c) = b (ix1 c) :=
by
  refine broadcastInDim_apply ![1] hb1 b (ix2 (0 : Fin 1) c) (ix1 c) fun a => ?_
  match a with
  | ⟨0, _⟩ => show c.val = if C = 1 then 0 else c.val; exact col_val c

/-- The host spelling whole: laid out as [1, C] on axis 1, then over R rows, at (r, c). -/
theorem layout_layout_apply (hb1 : (⟨1, ![C]⟩ : Shape).BroadcastsInDim ⟨2, ![1, C]⟩ (![1] : Fin 1 → Fin 2))
    (hb2 : (⟨2, ![1, C]⟩ : Shape).BroadcastsInDim ⟨2, ![R, C]⟩ (![0, 1] : Fin 2 → Fin 2))
    (b : (⟨1, ![C]⟩ : Shape).Idx → α) (r : Fin R) (c : Fin C) :
    broadcastInDim ⟨2, ![R, C]⟩ ![0, 1] hb2 (broadcastInDim ⟨2, ![1, C]⟩ ![1] hb1 b) (ix2 r c) = b (ix1 c) :=
  (layout_rows_apply hb2 _ r c).trans (layout_row_apply hb1 b c)

end Cert.BiasRow

end
-- ==== Proof.KI.Proj0Value.lean ====
/-
  The array a projection launch leaves: every 1024-row block of the result is written back exactly once, by the grid
  point of that block, and the block a point stores is the product of its row block of X with the whole W plus the
  bias row.  So the array after the launch is X·W + b, entry by entry.

  The argument has three parts.  First, what a point computes from its three staged blocks, read at one entry: the
  narrowings to bf16 are the identity on the extended reals, the product into a zero accumulator is the sum over the
  contracted axis, and the bias row is repeated down the rows.  Second, each staged block read back as entries of its
  array: a block's coordinate on an axis is the block index times the block size plus the coordinate inside the block,
  and the block indices are decided once over the four grid points.  Third, the blocks tile the array: row r lies in
  the block of point r / 1024, so the array ends holding the one function whose block t every point t writes.
-/
import proofs.«104826_j18837726560765_1_alg».proof.Proof.KI.Proj0
import proofs.«104826_j18837726560765_1_alg».proof.Proof.Spec
import proofs.«104826_j18837726560765_1_alg».proof.Proof.LibDense
import proofs.«104826_j18837726560765_1_alg».proof.Proof.LibBiasRow
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-! ## The payload at an entry -/

/-- The whole-buffer rectangles start at the origin. -/
theorem proj0_hz : (![0, 0] : Fin 2 → Nat) = fun _ => 0 := funext fun a => by fin_cases a <;> rfl

/-- What a point computes from its three blocks, at the entry (p, q): the row p of the first block against the column q
    of the second, plus the entry q of the bias row.  The narrowings to bf16 are the identity on the extended reals, the
    product into a zero accumulator is the plain sum over the contracted axis, the shape cast of the bias row is onto its
    own shape, and the broadcast repeats the one row down the 1024 rows. -/
theorem proj0_pay_apply (x0 x1 : Vec Ideal S1024x1024 .f32) (x2 : Vec Ideal S1x1024 .f32) (p q : Fin 1024) :
    (k0_pay1 (F := Ideal) x0 x1 x2 : S1024x1024.Idx → EReal) (ix2 p q)
      = (∑ k : Fin 1024, (x0 : S1024x1024.Idx → EReal) (ix2 p k) * (x1 : S1024x1024.Idx → EReal) (ix2 k q))
          + (x2 : S1x1024.Idx → EReal) (ix2 (0 : Fin 1) q) := by
  unfold k0_pay1
  show addf (F := Ideal) (matmul (F := Ideal) dot_S1024x1024_S1024x1024_S1024x1024_1_0_0_1_n_n none (x0 : FVec Ideal S1024x1024 .f32) (x1 : FVec Ideal S1024x1024 .f32) (constant (F := Ideal) S1024x1024 .f32 0x00000000#32))
      (broadcastTo S1024x1024 (shapeCast S1x1024 (x2 : FVec Ideal S1x1024 .f32) shapeCasts_S1x1024_S1x1024) broadcasts_S1x1024_S1024x1024) (ix2 p q) = _
  rw [addf_apply, Cert.Dense.matmul_zero_plain_apply _ rfl rfl rfl rfl rfl rfl, Cert.BiasRow.stretch_row_apply, shapeCast_self]

/-- The specification's array at an index whose coordinates are r and q is the entry (r, q). -/
theorem proj0_spec_apply (X : Cert.Spec.SLong.Idx → EReal) (W : Cert.Spec.SSq.Idx → EReal) (b : Cert.Spec.SRow.Idx → EReal)
    (i : S4096x1024.Idx) (r : Fin 4096) (q : Fin 1024) (hr : (i 0).val = r.val) (hq : (i 1).val = q.val) :
    Cert.Spec.projRow X W b i = Cert.Spec.projRowAt X W b r q := by
  obtain rfl : i = ix2 r q := funext fun a => match a with
    | ⟨0, _⟩ => Fin.ext hr
    | ⟨1, _⟩ => Fin.ext hq
  rfl

/-! ## The blocks the windows stage, read where the output's block says -/

/-- The printed index maps, decided once over the four grid points: the row block of X and the output block move with the
    point, the weight matrix and the bias row stay at the origin. -/
theorem proj0_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The block of X at point t holds rows 1024·t … 1024·t + 1023 of X. -/
theorem proj0_iblk_0_apply (c : Dev nD) (t : Fin cfg0.N) (p k : Fin 1024) (r : Fin 4096) (hr : r.val = t.val * 1024 + p.val) :
    (iblk0 V c 0 t : Vec Ideal S1024x1024 .f32) (ix2 p k)
      = (V c (Pipeline.arrRef spec0 0) : S4096x1024.Idx → EReal) (ix2 r k) := by
  obtain ⟨e0, e1, -, -, -, -, -, -⟩ := proj0_idx_facts t
  unfold iblk0
  rw [View.read_apply]
  show V c (Pipeline.arrRef spec0 0) (((cfg0.win 0).blk t).view.emb (ix2 p k)) = V c (Pipeline.arrRef spec0 0) (ix2 r k)
  refine congrArg (V c (Pipeline.arrRef spec0 0)) (funext fun a => Fin.ext ?_)
  match a with
  | ⟨0, _⟩ => show win0_0.index t (0 : Fin 2) * 1024 + 1 * p.val = r.val; omega
  | ⟨1, _⟩ => show win0_0.index t (1 : Fin 2) * 1024 + 1 * k.val = k.val; omega

/-- The block of W at any point is all of W. -/
theorem proj0_iblk_1_apply (c : Dev nD) (t : Fin cfg0.N) (k q : Fin 1024) :
    (iblk0 V c 1 t : Vec Ideal S1024x1024 .f32) (ix2 k q)
      = (V c (Pipeline.arrRef spec0 1) : S1024x1024.Idx → EReal) (ix2 k q) := by
  obtain ⟨-, -, e2, e3, -, -, -, -⟩ := proj0_idx_facts t
  unfold iblk0
  rw [View.read_apply]
  show V c (Pipeline.arrRef spec0 1) (((cfg0.win 1).blk t).view.emb (ix2 k q)) = V c (Pipeline.arrRef spec0 1) (ix2 k q)
  refine congrArg (V c (Pipeline.arrRef spec0 1)) (funext fun a => Fin.ext ?_)
  match a with
  | ⟨0, _⟩ => show win0_1.index t (0 : Fin 2) * 1024 + 1 * k.val = k.val; omega
  | ⟨1, _⟩ => show win0_1.index t (1 : Fin 2) * 1024 + 1 * q.val = q.val; omega

/-- The block of the bias row at any point is the whole row. -/
theorem proj0_iblk_2_apply (c : Dev nD) (t : Fin cfg0.N) (q : Fin 1024) :
    (iblk0 V c 2 t : Vec Ideal S1x1024 .f32) (ix2 (0 : Fin 1) q)
      = (V c (Pipeline.arrRef spec0 2) : S1x1024.Idx → EReal) (ix2 (0 : Fin 1) q) := by
  obtain ⟨-, -, -, -, e4, e5, -, -⟩ := proj0_idx_facts t
  unfold iblk0
  rw [View.read_apply]
  show V c (Pipeline.arrRef spec0 2) (((cfg0.win 2).blk t).view.emb (ix2 (0 : Fin 1) q)) = V c (Pipeline.arrRef spec0 2) (ix2 (0 : Fin 1) q)
  refine congrArg (V c (Pipeline.arrRef spec0 2)) (funext fun a => Fin.ext ?_)
  match a with
  | ⟨0, _⟩ => show win0_2.index t (0 : Fin 2) * 1 + 1 * (0 : Fin 1).val = (0 : Fin 1).val; omega
  | ⟨1, _⟩ => show win0_2.index t (1 : Fin 2) * 1024 + 1 * q.val = q.val; omega

/-! ## From blocks to the array -/

/-- What point t writes back is block t of X·W + b. -/
theorem proj0_flushed (c : Dev nD) (t : Fin cfg0.N) :
    (dat0 (F := Ideal) V c).flushed 3 t = ((cfg0.win 3).blk t).view.read (Elt Ideal)
      (Cert.Spec.projRow (V c (Pipeline.arrRef spec0 0)) (V c (Pipeline.arrRef spec0 1)) (V c (Pipeline.arrRef spec0 2))) := by
  show (cfg0.win 3).cut (grid0.coords t) ((dat0 (F := Ideal) V c).after 3 t) = _
  rw [after0_3]
  unfold out0_3
  rw [View.canon_unit_zero proj0_hz]
  simp only [View.ld_unit_zero (S := S1024x1024) proj0_hz, View.ld_unit_zero (S := S1x1024) proj0_hz]
  obtain ⟨-, -, -, -, -, -, e6, e7⟩ := proj0_idx_facts t
  refine funext fun (j : S1024x1024.Idx) => ?_
  obtain ⟨p, q, rfl⟩ : ∃ (p : Fin 1024) (q : Fin 1024), j = ix2 p q := ⟨j 0, j 1, eq_ix2 j⟩
  have hN : cfg0.N = 4 := N_0
  have hp : p.val < 1024 := p.isLt
  have ht : t.val < 4 := by have := t.isLt; omega
  -- the row of the array that the entry (p, q) of block t is
  have hr : t.val * 1024 + p.val < 4096 := by omega
  show (k0_pay1 (F := Ideal) (iblk0 V c 0 t) (iblk0 V c 1 t) (iblk0 V c 2 t) : S1024x1024.Idx → EReal) (ix2 p q)
    = Cert.Spec.projRow (V c (Pipeline.arrRef spec0 0)) (V c (Pipeline.arrRef spec0 1)) (V c (Pipeline.arrRef spec0 2))
        (((cfg0.win 3).blk t).view.emb (ix2 p q))
  refine (proj0_pay_apply (iblk0 V c 0 t) (iblk0 V c 1 t) (iblk0 V c 2 t) p q).trans ?_
  refine Eq.trans ?_ (proj0_spec_apply (V c (Pipeline.arrRef spec0 0)) (V c (Pipeline.arrRef spec0 1)) (V c (Pipeline.arrRef spec0 2))
    (((cfg0.win 3).blk t).view.emb (ix2 p q)) ⟨t.val * 1024 + p.val, hr⟩ q
    (by show win0_3.index t (0 : Fin 2) * 1024 + 1 * p.val = t.val * 1024 + p.val; omega)
    (by show win0_3.index t (1 : Fin 2) * 1024 + 1 * q.val = q.val; omega)).symm
  unfold Cert.Spec.projRowAt
  exact congrArg₂ (· + ·)
    (Finset.sum_congr rfl fun k _ => congrArg₂ (· * ·) (proj0_iblk_0_apply V c t p k ⟨t.val * 1024 + p.val, hr⟩ rfl) (proj0_iblk_1_apply V c t k q))
    (proj0_iblk_2_apply V c t q)

/-- An index of the array is in point t's block iff each coordinate is in the block's range on its axis. -/
theorem proj0_mem_blk (t : Fin cfg0.N) (i : S4096x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole (Pipeline.arrRef spec0 3)).slice (win0_3.rect t)).set ↔ _
  rw [View.set_slice_whole, Rect.mem_set_unit]
  exact Iff.rfl

/-- Every index of the array lies in the block of the point its row falls in: row r is in block r / 1024. -/
theorem proj0_cover (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  have hN : cfg0.N = 4 := N_0
  obtain ⟨-, -, -, -, -, -, e6, e7⟩ := proj0_idx_facts ⟨(i 0).val / 1024, by omega⟩
  refine ⟨⟨(i 0).val / 1024, by omega⟩, flush0_3 _, ?_⟩
  rw [proj0_mem_blk]
  intro a
  match a with
  | ⟨0, _⟩ =>
    show win0_3.index ⟨(i 0).val / 1024, _⟩ (0 : Fin 2) * 1024 ≤ (i 0).val ∧ (i 0).val < win0_3.index ⟨(i 0).val / 1024, _⟩ (0 : Fin 2) * 1024 + 1024
    rw [e6]; show (i 0).val / 1024 * 1024 ≤ (i 0).val ∧ (i 0).val < (i 0).val / 1024 * 1024 + 1024; omega
  | ⟨1, _⟩ =>
    show win0_3.index ⟨(i 0).val / 1024, _⟩ (1 : Fin 2) * 1024 ≤ (i 1).val ∧ (i 1).val < win0_3.index ⟨(i 0).val / 1024, _⟩ (1 : Fin 2) * 1024 + 1024
    rw [e7]; omega

/-- After the launch its result array holds X·W + b (the bias read off the 1×1024 row the launch is handed). -/
theorem proj0_array (c : Dev nD) :
    ((dat0 (F := Ideal) V c).arrAt 3 cfg0.N : S4096x1024.Idx → EReal)
      = Cert.Spec.projRow (V c main_arg0) (V c main_arg2) (V c main_v0) :=
  (dat0 (F := Ideal) V c).arrAt_eq_of_cover 3
    (Cert.Spec.projRow (V c (Pipeline.arrRef spec0 0)) (V c (Pipeline.arrRef spec0 1)) (V c (Pipeline.arrRef spec0 2)))
    (fun t _ => proj0_flushed V c t) proj0_cover

end Cert.KernelIdeal.Hand

end
-- ==== Proof.KI.AttnTerm.lean ====
/-
  One grid point of the attention launch, entry by entry over the extended reals.

  With Q a 1024-row query block, K and V a 512-row key block and A what the accumulator held, the point leaves
      A(p,c) + Σ_{j<512} σ( (Σ_{d<1024} Q(p,d)·K(j,d)) · s ) · V(j,c),        s = 2⁻⁵,
  and the block the first key block starts from is zero everywhere.  The two products are plain row-by-column sums
  into zero accumulators, the transpose of K swaps its two coordinates, and every change of float format and every
  shape cast to the same shape is the identity.
-/
import proofs.«104826_j18837726560765_1_alg».proof.Proof.Gen.KernelIdeal.Skeleton
import proofs.«104826_j18837726560765_1_alg».proof.Proof.LibDense
import proofs.«104826_j18837726560765_1_alg».proof.Proof.Spec
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.ValueIdx

/-- The block the first key block starts from is zero at every entry. -/
theorem pay1_apply (p c : Fin 1024) : k3_pay1 (F := Ideal) (ix2 p c) = 0 := by
  unfold k3_pay1
  -- the shape cast to the same shape is the identity; the splat reads the zero word, which is the number 0
  refine (congrFun (shapeCast_self _ _) (ix2 p c)).trans ?_
  exact Ideal.ofBits_zero_f32

/-- What one point adds: the old accumulator plus the gated sum over the 512 keys of its key block. -/
theorem pay2_apply (q : Vec Ideal S1024x1024 .bf16) (k v : Vec Ideal S512x1024 .bf16) (a : Vec Ideal S1024x1024 .f32)
    (p c : Fin 1024) :
    k3_pay2 (F := Ideal) q k a v (ix2 p c)
      = a (ix2 p c)
        + ∑ j : Fin 512, Ideal.logistic ((∑ d : Fin 1024, q (ix2 p d) * k (ix2 j d)) * Cert.Spec.scale) * v (ix2 j c) := by
  unfold k3_pay2
  dsimp only
  -- the closing shape cast is the identity, and the sum of two blocks is taken entry by entry
  refine (congrFun (shapeCast_self _ _) (ix2 p c)).trans ?_
  refine (addf_apply _ _ (ix2 p c)).trans ?_
  refine congrArg (fun z => a (ix2 p c) + z) ?_
  -- the second product, gate block times value block, is the sum over the 512 keys
  refine (Cert.Dense.matmul_zero_plain_apply dot_S1024x512_S512x1024_S1024x1024_1_0_0_1_n_n rfl rfl rfl rfl rfl rfl none _ _ p c).trans ?_
  refine Finset.sum_congr rfl fun j _ => ?_
  refine congrArg₂ (fun x y => x * y) ?_ (congrFun (shapeCast_self v _) (ix2 j c))
  -- the gate: narrowing is the identity, the logistic and the scaling act entry by entry
  show Ideal.logistic (_ * Cert.Spec.scale) = _
  refine congrArg (fun z => Ideal.logistic (z * Cert.Spec.scale)) ?_
  -- the first product, query block times transposed key block, is the sum over the 1024 features
  refine (Cert.Dense.matmul_zero_plain_apply dot_S1024x1024_S1024x512_S1024x512_1_0_0_1_n_n rfl rfl rfl rfl rfl rfl none _ _ p j).trans ?_
  refine Finset.sum_congr rfl fun d _ => ?_
  refine congrArg₂ (fun x y => x * y) (congrFun (shapeCast_self q _) (ix2 p d)) ?_
  -- the transposed key block at (d, j) is the key block at (j, d)
  refine (transpose_apply [1, 0] _ _ (ix2 d j) (ix2 j d) fun b => ?_).trans (congrFun (shapeCast_self k _) (ix2 j d))
  match b with
  | ⟨0, _⟩ => rfl
  | ⟨1, _⟩ => rfl

end Cert.KernelIdeal.Hand

end
-- ==== Proof.LibBlockSum.lean ====
/-
  A sum over Fin N taken block by block: the terms below B·(k+1) are the terms below B·k and the B terms of block k.
-/
import Mathlib.Algebra.BigOperators.Fin
import Mathlib.Algebra.BigOperators.Intervals

open scoped BigOperators

namespace Cert.BlockSum

/-- The sum of f over the indices below B·(k+1) is the sum over the indices below B·k plus the sum over block k,
    whose j-th index is B·k + j. For any commutative additive monoid (the extended reals included). -/
theorem sum_below_succ {M : Type*} [AddCommMonoid M] {N : ℕ} (B k : ℕ) (hj : ∀ j : Fin B, B * k + j.val < N) (f : Fin N → M) :
    ∑ n ∈ Finset.univ.filter (fun n : Fin N => n.val < B * (k + 1)), f n
      = ∑ n ∈ Finset.univ.filter (fun n : Fin N => n.val < B * k), f n
        + ∑ j : Fin B, f ⟨B * k + j.val, hj j⟩ := by
  -- below B·(k+1) and below B·k is below B·k
  have hlow : Finset.univ.filter (fun n : Fin N => n.val < B * (k + 1) ∧ n.val < B * k)
      = Finset.univ.filter (fun n : Fin N => n.val < B * k) :=
    Finset.filter_congr fun n _ => by
      rw [Nat.mul_succ]
      exact ⟨fun h => h.2, fun h => ⟨by omega, h⟩⟩
  -- below B·(k+1) and not below B·k is block k: the B indices B·k + j
  have hblock : Finset.univ.filter (fun n : Fin N => n.val < B * (k + 1) ∧ ¬ n.val < B * k)
      = Finset.univ.image (fun j : Fin B => (⟨B * k + j.val, hj j⟩ : Fin N)) := by
    ext n
    rw [Finset.mem_filter, Finset.mem_image, Nat.mul_succ]
    constructor
    · rintro ⟨_, h1, h2⟩
      exact ⟨⟨n.val - B * k, by omega⟩, Finset.mem_univ _,
        Fin.ext (by show B * k + (n.val - B * k) = n.val; omega)⟩
    · rintro ⟨j, _, rfl⟩
      have hjB := j.isLt
      exact ⟨Finset.mem_univ _, by show B * k + j.val < B * k + B; omega,
        by show ¬ B * k + j.val < B * k; omega⟩
  rw [← Finset.sum_filter_add_sum_filter_not (Finset.univ.filter (fun n : Fin N => n.val < B * (k + 1)))
      (fun n : Fin N => n.val < B * k) f,
    Finset.filter_filter, Finset.filter_filter, hlow, hblock, Finset.sum_image]
  -- j ↦ B·k + j is injective
  intro a _ b _ h
  have hv : B * k + a.val = B * k + b.val := congrArg Fin.val h
  exact Fin.ext (by omega)

/-- Nothing lies below zero. -/
theorem sum_below_zero {M : Type*} [AddCommMonoid M] {N : ℕ} (B : ℕ) (f : Fin N → M) :
    ∑ n ∈ Finset.univ.filter (fun n : Fin N => n.val < B * 0), f n = 0 := by
  rw [Finset.filter_eq_empty_iff.mpr (fun n _ => by rw [Nat.mul_zero]; exact Nat.not_lt_zero _), Finset.sum_empty]

/-- Everything lies below N. -/
theorem sum_below_all {M : Type*} [AddCommMonoid M] {N : ℕ} (b : ℕ) (hb : N ≤ b) (f : Fin N → M) :
    ∑ n ∈ Finset.univ.filter (fun n : Fin N => n.val < b), f n = ∑ n : Fin N, f n := by
  rw [Finset.filter_true_of_mem (fun n _ => lt_of_lt_of_le n.isLt hb)]

end Cert.BlockSum
-- ==== Proof.KI.AttnValue.lean ====
/-
  The array the attention launch leaves.  For a query block qi the accumulator after key block ki holds the gated sum
  over the keys 0 … 512·(ki+1) − 1; at ki = 7 it is stored to the output block and written back.  So the array after
  the launch is the gated sum over all 4096 keys, entry by entry.

  The sum over the keys is taken block by block: the keys below 512·(k+1) are the keys below 512·k and the 512 keys
  of block k (on the extended reals + is commutative and associative, so no finiteness is asked).  Grid point t is
  query block t / 8 and key block t % 8; its three input blocks are rows 1024·(t/8) … of Q and rows 512·(t%8) … of K
  and V, and the eight output blocks written back at the points t % 8 = 7 tile the 4096 rows of the result.
-/
import proofs.«104826_j18837726560765_1_alg».proof.Proof.KI.Attn
import proofs.«104826_j18837726560765_1_alg».proof.Proof.KI.AttnTerm
import proofs.«104826_j18837726560765_1_alg».proof.Proof.Spec
import proofs.«104826_j18837726560765_1_alg».proof.Proof.LibBlockSum
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-! ## The sum over the keys, block by block -/

/-- The gated sum over the keys below 512·k, at row r and column cc. -/
def below (Q K Vv : Cert.Spec.SLong.Idx → EReal) (r : Fin 4096) (cc : Fin 1024) (k : ℕ) : EReal :=
  ∑ n ∈ Finset.univ.filter (fun n : Fin 4096 => n.val < 512 * k), Cert.Spec.gateAt Q K r n * Vv (ix2 n cc)

/-- No key lies below 0. -/
theorem below_zero (Q K Vv : Cert.Spec.SLong.Idx → EReal) (r : Fin 4096) (cc : Fin 1024) : below Q K Vv r cc 0 = 0 :=
  Cert.BlockSum.sum_below_zero 512 _

/-- The keys below 512·(k+1) are the keys below 512·k and the 512 keys of block k. -/
theorem below_succ (Q K Vv : Cert.Spec.SLong.Idx → EReal) (r : Fin 4096) (cc : Fin 1024) (k : ℕ)
    (hj : ∀ j : Fin 512, 512 * k + j.val < 4096) :
    below Q K Vv r cc (k + 1)
      = below Q K Vv r cc k
        + ∑ j : Fin 512, Cert.Spec.gateAt Q K r ⟨512 * k + j.val, hj j⟩ * Vv (ix2 (⟨512 * k + j.val, hj j⟩ : Fin 4096) cc) :=
  Cert.BlockSum.sum_below_succ 512 k hj _

/-- All 4096 keys lie below 512·8. -/
theorem below_all (Q K Vv : Cert.Spec.SLong.Idx → EReal) (r : Fin 4096) (cc : Fin 1024) :
    below Q K Vv r cc 8 = Cert.Spec.attnAt Q K Vv r cc :=
  Cert.BlockSum.sum_below_all (512 * 8) (by decide) _

/-- One point's step: if the accumulator held the sum over the keys below 512·k, and the point's blocks are row r of Q
    and key block k of K and V, then what the point leaves is the sum over the keys below 512·(k+1). -/
theorem below_step (Q K Vv : Cert.Spec.SLong.Idx → EReal) (r : Fin 4096) (cc : Fin 1024) (k : ℕ)
    (hj : ∀ j : Fin 512, 512 * k + j.val < 4096)
    (qb : Vec Ideal S1024x1024 .bf16) (kb vb : Vec Ideal S512x1024 .bf16) (p : Fin 1024)
    (hq : ∀ d : Fin 1024, qb (ix2 p d) = Q (ix2 r d))
    (hkb : ∀ (j : Fin 512) (d : Fin 1024), kb (ix2 j d) = K (ix2 (⟨512 * k + j.val, hj j⟩ : Fin 4096) d))
    (hvb : ∀ j : Fin 512, vb (ix2 j cc) = Vv (ix2 (⟨512 * k + j.val, hj j⟩ : Fin 4096) cc))
    (a : EReal) (ha : a = below Q K Vv r cc k) :
    a + ∑ j : Fin 512, Ideal.logistic ((∑ d : Fin 1024, qb (ix2 p d) * kb (ix2 j d)) * Cert.Spec.scale) * vb (ix2 j cc)
      = below Q K Vv r cc (k + 1) := by
  rw [below_succ Q K Vv r cc k hj, ha]
  refine congrArg (fun z => below Q K Vv r cc k + z) (Finset.sum_congr rfl fun j _ => ?_)
  -- term by term: the gate of row r against key 512·k + j, times that key's value
  refine congrArg₂ (fun x y => x * y) ?_ (hvb j)
  show _ = Ideal.logistic ((∑ d : Fin 1024, Q (ix2 r d) * K (ix2 (⟨512 * k + j.val, hj j⟩ : Fin 4096) d)) * Cert.Spec.scale)
  refine congrArg (fun z => Ideal.logistic (z * Cert.Spec.scale)) (Finset.sum_congr rfl fun d _ => ?_)
  exact congrArg₂ (fun x y => x * y) (hq d) (hkb j d)

/-! ## The launch's blocks as rows of its three arrays -/

variable (V : (c : Dev nD) → (b : Ref sig .tc) → Buf (Elt Ideal) ((c : Thread nD τ).loc b))

/-- The printed index maps over the grid: point t is query block t / 8 and key block t % 8, and every block starts
    at column 0. -/
theorem idx_facts3 : ∀ t : Fin cfg3.N,
    win3_0.index t (0 : Fin 2) = t.val / 8 ∧ win3_0.index t (1 : Fin 2) = 0
    ∧ win3_1.index t (0 : Fin 2) = t.val % 8 ∧ win3_1.index t (1 : Fin 2) = 0
    ∧ win3_2.index t (0 : Fin 2) = t.val % 8 ∧ win3_2.index t (1 : Fin 2) = 0
    ∧ win3_3.index t (0 : Fin 2) = t.val / 8 ∧ win3_3.index t (1 : Fin 2) = 0 :=
  (by decide +kernel : ∀ t : Fin grid3.N, _)

/-- The three arrays the launch reads, and the three blocks a point is handed, at their literal types. -/
abbrev Qa (c : Dev nD) : Vec Ideal S4096x1024 .bf16 := V c main_v1
abbrev Ka (c : Dev nD) : Vec Ideal S4096x1024 .bf16 := V c main_v3
abbrev Va (c : Dev nD) : Vec Ideal S4096x1024 .bf16 := V c main_v5
abbrev qblk (c : Dev nD) (t : Fin cfg3.N) : Vec Ideal S1024x1024 .bf16 := iblk3 V c 0 t
abbrev kblk (c : Dev nD) (t : Fin cfg3.N) : Vec Ideal S512x1024 .bf16 := iblk3 V c 1 t
abbrev vblk (c : Dev nD) (t : Fin cfg3.N) : Vec Ideal S512x1024 .bf16 := iblk3 V c 2 t

/-- Row p of point t's query block is row 1024·(t/8) + p of Q. -/
theorem qblk_apply (c : Dev nD) (t : Fin cfg3.N) (p d : Fin 1024) (r : Fin 4096) (hr : r.val = 1024 * (t.val / 8) + p.val) :
    qblk V c t (ix2 p d) = Qa V c (ix2 r d) := by
  obtain ⟨e0, e1, -⟩ := idx_facts3 t
  show V c main_v1 (((cfg3.win 0).blk t).view.emb (ix2 p d)) = V c main_v1 (ix2 r d)
  refine congrArg (V c main_v1) (funext fun a => Fin.ext ?_)
  -- a block's coordinate is block index × block size + the coordinate inside the block
  match a with
  | ⟨0, _⟩ => show win3_0.index t (0 : Fin 2) * 1024 + 1 * p.val = r.val; omega
  | ⟨1, _⟩ => show win3_0.index t (1 : Fin 2) * 1024 + 1 * d.val = d.val; omega

/-- Row j of point t's key block is row 512·(t%8) + j of K. -/
theorem kblk_apply (c : Dev nD) (t : Fin cfg3.N) (j : Fin 512) (d : Fin 1024) (n : Fin 4096) (hn : n.val = 512 * (t.val % 8) + j.val) :
    kblk V c t (ix2 j d) = Ka V c (ix2 n d) := by
  obtain ⟨-, -, e2, e3, -⟩ := idx_facts3 t
  show V c main_v3 (((cfg3.win 1).blk t).view.emb (ix2 j d)) = V c main_v3 (ix2 n d)
  refine congrArg (V c main_v3) (funext fun a => Fin.ext ?_)
  match a with
  | ⟨0, _⟩ => show win3_1.index t (0 : Fin 2) * 512 + 1 * j.val = n.val; omega
  | ⟨1, _⟩ => show win3_1.index t (1 : Fin 2) * 1024 + 1 * d.val = d.val; omega

/-- Row j of point t's value block is row 512·(t%8) + j of V. -/
theorem vblk_apply (c : Dev nD) (t : Fin cfg3.N) (j : Fin 512) (d : Fin 1024) (n : Fin 4096) (hn : n.val = 512 * (t.val % 8) + j.val) :
    vblk V c t (ix2 j d) = Va V c (ix2 n d) := by
  obtain ⟨-, -, -, -, e4, e5, -⟩ := idx_facts3 t
  show V c main_v5 (((cfg3.win 2).blk t).view.emb (ix2 j d)) = V c main_v5 (ix2 n d)
  refine congrArg (V c main_v5) (funext fun a => Fin.ext ?_)
  match a with
  | ⟨0, _⟩ => show win3_2.index t (0 : Fin 2) * 512 + 1 * j.val = n.val; omega
  | ⟨1, _⟩ => show win3_2.index t (1 : Fin 2) * 1024 + 1 * d.val = d.val; omega

/-! ## The accumulator, by induction over the points -/

/-- After the body at point n the accumulator holds, at (p, cc), the gated sum of row 1024·(n/8) + p over the keys
    below 512·(n%8 + 1): the first key block of a query block starts from zero, every other one from what the point
    before left. -/
theorem acc3_apply (c : Dev nD) (n : ℕ) : ∀ (hn : n < cfg3.N) (p cc : Fin 1024) (r : Fin 4096),
    r.val = 1024 * (n / 8) + p.val →
    acc3 V c n hn (ix2 p cc) = below (Qa V c) (Ka V c) (Va V c) r cc (n % 8 + 1) := by
  induction n using Nat.strong_induction_on with
  | _ n ih =>
    intro hn p cc r hr
    have hN : cfg3.N = 32 := N_3
    have hj : ∀ j : Fin 512, 512 * (n % 8) + j.val < 4096 := fun j => by have := j.isLt; omega
    -- this point's three blocks, as rows of the arrays
    have hq : ∀ d : Fin 1024, qblk V c ⟨n, hn⟩ (ix2 p d) = Qa V c (ix2 r d) := fun d => qblk_apply V c ⟨n, hn⟩ p d r hr
    have hk : ∀ (j : Fin 512) (d : Fin 1024),
        kblk V c ⟨n, hn⟩ (ix2 j d) = Ka V c (ix2 (⟨512 * (n % 8) + j.val, hj j⟩ : Fin 4096) d) :=
      fun j d => kblk_apply V c ⟨n, hn⟩ j d ⟨512 * (n % 8) + j.val, hj j⟩ rfl
    have hv : ∀ j : Fin 512,
        vblk V c ⟨n, hn⟩ (ix2 j cc) = Va V c (ix2 (⟨512 * (n % 8) + j.val, hj j⟩ : Fin 4096) cc) :=
      fun j => vblk_apply V c ⟨n, hn⟩ j cc ⟨512 * (n % 8) + j.val, hj j⟩ rfl
    by_cases h0 : n % 8 = 0
    · -- first key block: the zero block plus this block's term
      refine (congrFun (acc3_first V c ⟨n, hn⟩ h0) (ix2 p cc)).trans ?_
      refine (pay2_apply (qblk V c ⟨n, hn⟩) (kblk V c ⟨n, hn⟩) (vblk V c ⟨n, hn⟩) (k3_pay1 (F := Ideal)) p cc).trans ?_
      refine below_step (Qa V c) (Ka V c) (Va V c) r cc (n % 8) hj (qblk V c ⟨n, hn⟩) (kblk V c ⟨n, hn⟩)
        (vblk V c ⟨n, hn⟩) p hq hk hv _ ?_
      rw [h0]
      exact (pay1_apply p cc).trans (below_zero (Qa V c) (Ka V c) (Va V c) r cc).symm
    · -- a later key block: what the point before left plus this block's term
      refine (congrFun (acc3_next V c ⟨n, hn⟩ h0) (ix2 p cc)).trans ?_
      refine (pay2_apply (qblk V c ⟨n, hn⟩) (kblk V c ⟨n, hn⟩) (vblk V c ⟨n, hn⟩)
        (acc3 V c (n - 1) (Nat.lt_of_le_of_lt (Nat.sub_le _ _) hn)) p cc).trans ?_
      refine below_step (Qa V c) (Ka V c) (Va V c) r cc (n % 8) hj (qblk V c ⟨n, hn⟩) (kblk V c ⟨n, hn⟩)
        (vblk V c ⟨n, hn⟩) p hq hk hv _ ?_
      -- the point before is in the same query block, one key block earlier
      have e := ih (n - 1) (by omega) (Nat.lt_of_le_of_lt (Nat.sub_le _ _) hn) p cc r (by omega)
      rw [show (n - 1) % 8 + 1 = n % 8 from by omega] at e
      exact e

/-! ## From the written-back blocks to the array -/

/-- What a point with t % 8 = 7 writes back is its block of the gated sum over all keys. -/
theorem flushed3_eq (c : Dev nD) (t : Fin cfg3.N) (hf : (cfg3.win 3).flush t = true) :
    (dat3 (F := Ideal) V c).flushed 3 t
      = ((cfg3.win 3).blk t).view.read (Elt Ideal) (Cert.Spec.attn (V c main_v1) (V c main_v3) (V c main_v5)) := by
  have h7 : t.val % 8 = 7 := (flush3_3 t).mp hf
  show (cfg3.win 3).cut (grid3.coords t) ((dat3 (F := Ideal) V c).after 3 t) = _
  rw [after3_3 V c t h7]
  funext j
  obtain ⟨-, -, -, -, -, -, e6, e7⟩ := idx_facts3 t
  have hN : cfg3.N = 32 := N_3
  have ht : t.val < cfg3.N := t.isLt
  have hj0 : (j 0).val < 1024 := (j 0).isLt
  have hj1 : (j 1).val < 1024 := (j 1).isLt
  -- the entry's place in the block and in the array
  have ej : (cfg3.win 3).xinj (grid3.coords t) j = ix2 (⟨(j 0).val, hj0⟩ : Fin 1024) (⟨(j 1).val, hj1⟩ : Fin 1024) :=
    funext fun a => match a with | ⟨0, _⟩ => rfl | ⟨1, _⟩ => rfl
  have ei : ((cfg3.win 3).blk t).view.emb j
      = ix2 (⟨1024 * (t.val / 8) + (j 0).val, by omega⟩ : Fin 4096) (⟨(j 1).val, hj1⟩ : Fin 1024) := by
    funext a; apply Fin.ext
    match a with
    | ⟨0, _⟩ => show win3_3.index t (0 : Fin 2) * 1024 + 1 * (j 0).val = 1024 * (t.val / 8) + (j 0).val; omega
    | ⟨1, _⟩ => show win3_3.index t (1 : Fin 2) * 1024 + 1 * (j 1).val = (j 1).val; omega
  show acc3 V c t.val t.isLt ((cfg3.win 3).xinj (grid3.coords t) j)
    = Cert.Spec.attn (V c main_v1) (V c main_v3) (V c main_v5) (((cfg3.win 3).blk t).view.emb j)
  refine (congrArg (acc3 V c t.val t.isLt) ej).trans ?_
  refine Eq.trans ?_ (congrArg (Cert.Spec.attn (V c main_v1) (V c main_v3) (V c main_v5)) ei).symm
  -- the accumulator after the last key block holds the sum over the keys below 512·8, which is all of them
  refine (acc3_apply V c t.val t.isLt ⟨(j 0).val, hj0⟩ ⟨(j 1).val, hj1⟩ ⟨1024 * (t.val / 8) + (j 0).val, by omega⟩ rfl).trans ?_
  rw [h7]
  exact below_all (Qa V c) (Ka V c) (Va V c) _ _

/-- An index of the result is in point t's output block iff each coordinate is in the block's range on its axis. -/
theorem mem_blk3 (t : Fin cfg3.N) (i : S4096x1024.Idx) :
    i ∈ ((cfg3.win 3).blk t).view.set
      ↔ ∀ a : Fin 2, win3_3.index t a * S1024x1024.size a ≤ (i a).val
          ∧ (i a).val < win3_3.index t a * S1024x1024.size a + S1024x1024.size a := by
  show i ∈ ((View.whole main_v6).slice (win3_3.rect t)).set ↔ _
  rw [View.set_slice_whole, Rect.mem_set_unit]
  exact Iff.rfl

/-- Every index of the result lies in a written-back block: row r in the block of the point 8·(r / 1024) + 7. -/
theorem cover3 (i : S4096x1024.Idx) :
    ∃ t : Fin cfg3.N, (cfg3.win 3).flush t = true ∧ i ∈ ((cfg3.win 3).blk t).view.set := by
  have hN : cfg3.N = 32 := N_3
  have hi0 : (i 0).val < 4096 := (i 0).isLt
  have hi1 : (i 1).val < 1024 := (i 1).isLt
  have htN : 8 * ((i 0).val / 1024) + 7 < cfg3.N := by omega
  obtain ⟨-, -, -, -, -, -, e6, e7⟩ := idx_facts3 ⟨8 * ((i 0).val / 1024) + 7, htN⟩
  have e6' : win3_3.index ⟨8 * ((i 0).val / 1024) + 7, htN⟩ (0 : Fin 2) = (8 * ((i 0).val / 1024) + 7) / 8 := e6
  refine ⟨⟨8 * ((i 0).val / 1024) + 7, htN⟩, (flush3_3 _).mpr (by show (8 * ((i 0).val / 1024) + 7) % 8 = 7; omega), ?_⟩
  rw [mem_blk3]
  intro a
  match a with
  | ⟨0, _⟩ =>
    show win3_3.index ⟨8 * ((i 0).val / 1024) + 7, htN⟩ (0 : Fin 2) * 1024 ≤ (i 0).val
      ∧ (i 0).val < win3_3.index ⟨8 * ((i 0).val / 1024) + 7, htN⟩ (0 : Fin 2) * 1024 + 1024
    omega
  | ⟨1, _⟩ =>
    show win3_3.index ⟨8 * ((i 0).val / 1024) + 7, htN⟩ (1 : Fin 2) * 1024 ≤ (i 1).val
      ∧ (i 1).val < win3_3.index ⟨8 * ((i 0).val / 1024) + 7, htN⟩ (1 : Fin 2) * 1024 + 1024
    omega

/-- After the launch its result array holds the gated sum of the three arrays it read. -/
theorem attn_array (c : Dev nD) :
    ((dat3 (F := Ideal) V c).arrAt 3 cfg3.N : S4096x1024.Idx → EReal)
      = Cert.Spec.attn (V c main_v1) (V c main_v3) (V c main_v5) :=
  (dat3 (F := Ideal) V c).arrAt_eq_of_cover 3 (Cert.Spec.attn (V c main_v1) (V c main_v3) (V c main_v5))
    (fun t hf => flushed3_eq V c t hf) (fun i => cover3 i)

end Cert.KernelIdeal.Hand

end
-- ==== Proof.KI.Value.lean ====
/-
  The result array of the idealized kernel's run, as the specification's function of the eight arguments.

  The attention launch leaves the gated sum of the three arrays it read (Q, K, V, as the launches before left them);
  each projection launch leaves X·W + b with b read off the 1×1024 row that the reshape before it wrote from the bias
  vector; an array written by one launch is not written again before the attention launch reads it.  Chaining these
  readings back to the launch memory gives the specification.
-/
import proofs.«104826_j18837726560765_1_alg».proof.Proof.KI.Frame
import proofs.«104826_j18837726560765_1_alg».proof.Proof.KI.Proj0Value
import proofs.«104826_j18837726560765_1_alg».proof.Proof.KI.Proj1Value
import proofs.«104826_j18837726560765_1_alg».proof.Proof.KI.Proj2Value
import proofs.«104826_j18837726560765_1_alg».proof.Proof.KI.AttnValue
import proofs.«104826_j18837726560765_1_alg».proof.Proof.Spec
import proofs.«104826_j18837726560765_1_alg».proof.Proof.LibBiasRow
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-! ## A projection with its bias given as the reshaped row -/

/-- X·W + b with b read off the row `shape_cast b` is X·W + b. -/
theorem projRow_cast (X : Cert.Spec.SLong.Idx → EReal) (W : Cert.Spec.SSq.Idx → EReal) (b : Cert.Spec.SVec.Idx → EReal)
    (h : (⟨1, ![1024]⟩ : Shape).ShapeCasts ⟨2, ![1, 1024]⟩) :
    Cert.Spec.projRow X W (shapeCast ⟨2, ![1, 1024]⟩ b h) = Cert.Spec.proj X W b := by
  funext i
  unfold Cert.Spec.projRow Cert.Spec.proj Cert.Spec.projRowAt Cert.Spec.projAt
  rw [Cert.BiasRow.cast_row_apply h b (i 1)]

/-! ## The three bias rows -/

theorem biasRow0 (c : Dev nD) :
    (W1 m c (Proc.devRef .tc main_v0) : S1x1024.Idx → EReal)
      = shapeCast S1x1024 (m ((c : Thread nD τ).loc main_arg3) : S1024.Idx → EReal) shapeCasts_S1024_S1x1024 := by
  show StableHlo.after hostOps0 (W0 m c) (Proc.devRef .tc main_v0) = _
  after_results
  rfl

theorem biasRow1 (c : Dev nD) :
    (W3 m c (Proc.devRef .tc main_v2) : S1x1024.Idx → EReal)
      = shapeCast S1x1024 (m ((c : Thread nD τ).loc main_arg5) : S1024.Idx → EReal) shapeCasts_S1024_S1x1024 := by
  have e : (W3 m c (Proc.devRef .tc main_v2) : S1x1024.Idx → EReal)
      = shapeCast S1x1024 (W2 m c (Proc.devRef .tc main_arg5) : S1024.Idx → EReal) shapeCasts_S1024_S1x1024 := by
    show StableHlo.after hostOps1 (W2 m c) (Proc.devRef .tc main_v2) = _
    after_results
    rfl
  rw [e, (W2_keep m c main_arg5 (by decide)).trans ((W1_keep m c main_arg5 (by decide)).trans rfl)]

theorem biasRow2 (c : Dev nD) :
    (W5 m c (Proc.devRef .tc main_v4) : S1x1024.Idx → EReal)
      = shapeCast S1x1024 (m ((c : Thread nD τ).loc main_arg7) : S1024.Idx → EReal) shapeCasts_S1024_S1x1024 := by
  have e : (W5 m c (Proc.devRef .tc main_v4) : S1x1024.Idx → EReal)
      = shapeCast S1x1024 (W4 m c (Proc.devRef .tc main_arg7) : S1024.Idx → EReal) shapeCasts_S1024_S1x1024 := by
    show StableHlo.after hostOps2 (W4 m c) (Proc.devRef .tc main_v4) = _
    after_results
    rfl
  rw [e, (W4_keep m c main_arg7 (by decide)).trans <| (W3_keep m c main_arg7 (by decide)).trans <|
    (W2_keep m c main_arg7 (by decide)).trans <| (W1_keep m c main_arg7 (by decide)).trans rfl]

/-! ## An argument as a launch finds it -/

theorem W1_arg (c : Dev nD) (b : Ref sig .tc) (h0 : b ≠ main_v0) : W1 m c (Proc.devRef .tc b) = m ((c : Thread nD τ).loc b) :=
  (W1_keep m c b h0).trans rfl
theorem W3_arg (c : Dev nD) (b : Ref sig .tc) (h0 : b ≠ main_v0) (h1 : b ≠ main_v1) (h2 : b ≠ main_v2) :
    W3 m c (Proc.devRef .tc b) = m ((c : Thread nD τ).loc b) :=
  (W3_keep m c b h2).trans <| (W2_keep m c b h1).trans <| W1_arg m c b h0
theorem W5_arg (c : Dev nD) (b : Ref sig .tc) (h0 : b ≠ main_v0) (h1 : b ≠ main_v1) (h2 : b ≠ main_v2) (h3 : b ≠ main_v3) (h4 : b ≠ main_v4) :
    W5 m c (Proc.devRef .tc b) = m ((c : Thread nD τ).loc b) :=
  (W5_keep m c b h4).trans <| (W4_keep m c b h3).trans <| W3_arg m c b h0 h1 h2

/-! ## The three projected arrays -/

/-- After the first projection launch Q's array is q·Wq + bq. -/
theorem arrQ (c : Dev nD) :
    (W2 m c (Proc.devRef .tc main_v1) : S4096x1024.Idx → EReal)
      = Cert.Spec.proj (m ((c : Thread nD τ).loc main_arg0)) (m ((c : Thread nD τ).loc main_arg2)) (m ((c : Thread nD τ).loc main_arg3)) := by
  have e := (W2_arr m c 3).trans (proj0_array (V1 m) c)
  refine e.trans ?_
  show Cert.Spec.projRow (W1 m c (Proc.devRef .tc main_arg0)) (W1 m c (Proc.devRef .tc main_arg2)) (W1 m c (Proc.devRef .tc main_v0)) = _
  rw [W1_arg m c main_arg0 (by decide), W1_arg m c main_arg2 (by decide), biasRow0 m c]
  exact projRow_cast _ _ _ _

/-- After the second, K's array is x·Wk + bk. -/
theorem arrK (c : Dev nD) :
    (W4 m c (Proc.devRef .tc main_v3) : S4096x1024.Idx → EReal)
      = Cert.Spec.proj (m ((c : Thread nD τ).loc main_arg1)) (m ((c : Thread nD τ).loc main_arg4)) (m ((c : Thread nD τ).loc main_arg5)) := by
  have e := (W4_arr m c 3).trans (proj1_array (V3 m) c)
  refine e.trans ?_
  show Cert.Spec.projRow (W3 m c (Proc.devRef .tc main_arg1)) (W3 m c (Proc.devRef .tc main_arg4)) (W3 m c (Proc.devRef .tc main_v2)) = _
  rw [W3_arg m c main_arg1 (by decide) (by decide) (by decide), W3_arg m c main_arg4 (by decide) (by decide) (by decide), biasRow1 m c]
  exact projRow_cast _ _ _ _

/-- After the third, V's array is x·Wv + bv. -/
theorem arrV (c : Dev nD) :
    (W6 m c (Proc.devRef .tc main_v5) : S4096x1024.Idx → EReal)
      = Cert.Spec.proj (m ((c : Thread nD τ).loc main_arg1)) (m ((c : Thread nD τ).loc main_arg6)) (m ((c : Thread nD τ).loc main_arg7)) := by
  have e := (W6_arr m c 3).trans (proj2_array (V5 m) c)
  refine e.trans ?_
  show Cert.Spec.projRow (W5 m c (Proc.devRef .tc main_arg1)) (W5 m c (Proc.devRef .tc main_arg6)) (W5 m c (Proc.devRef .tc main_v4)) = _
  rw [W5_arg m c main_arg1 (by decide) (by decide) (by decide) (by decide) (by decide),
    W5_arg m c main_arg6 (by decide) (by decide) (by decide) (by decide) (by decide), biasRow2 m c]
  exact projRow_cast _ _ _ _

/-! ## The result -/

/-- The result array after the run is the specification's function of the arguments. -/
theorem result_eq (c : Dev nD) :
    (W7 m c (Proc.devRef .tc main_v6) : S4096x1024.Idx → EReal)
      = Cert.Spec.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7)) := by
  have e := (W7_arr m c 3).trans (attn_array (V6 m) c)
  refine e.trans ?_
  show Cert.Spec.attn (W6 m c (Proc.devRef .tc main_v1)) (W6 m c (Proc.devRef .tc main_v3)) (W6 m c (Proc.devRef .tc main_v5)) = _
  have hQ : W6 m c (Proc.devRef .tc main_v1) = W2 m c (Proc.devRef .tc main_v1) :=
    (W6_keep m c main_v1 (by decide)).trans <| (W5_keep m c main_v1 (by decide)).trans <|
      (W4_keep m c main_v1 (by decide)).trans <| (W3_keep m c main_v1 (by decide))
  have hK : W6 m c (Proc.devRef .tc main_v3) = W4 m c (Proc.devRef .tc main_v3) :=
    (W6_keep m c main_v3 (by decide)).trans <| (W5_keep m c main_v3 (by decide))
  rw [hQ, hK, arrQ m c, arrK m c, arrV m c]
  rfl

end Cert.KernelIdeal.Hand

end
-- ==== Proof.Ref.Imports.lean ====
/-
  The reference side's generated material gathered in one place: the reference program's run (every weakly fair
  execution ends with the result buffer at the composed term of its host operations) and the stage-by-stage reading
  of that term at an index.  The modules that compare the reference with the kernel import this one.
-/
import proofs.«104826_j18837726560765_1_alg».proof.Proof.Gen.ReferenceIdeal.Run
import proofs.«104826_j18837726560765_1_alg».proof.Proof.Gen.ReferenceIdeal.Read
-- ==== Proof.Ref.IsSpec.lean ====
/-
  The reference's result, stage by stage, is the specification: three projections (a product plus a bias broadcast
  down the rows), the scores Q·Kᵀ scaled by 1/√1024 = 2⁻⁵, the gate written out as 1/(1 + e^(−z)), and the product
  with V.
-/
import proofs.«104826_j18837726560765_1_alg».proof.Proof.Ref.Imports
import proofs.«104826_j18837726560765_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Mathlib.Analysis.Real.Sqrt

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

/-! ## The literals of the reference, as the numbers their words denote

The word 0x3F800000 denotes 1 (the library's `Ideal.ofBits_one_f32`); the other two are read here. -/

/-- The word 0x44800000 denotes 1024 = 2¹⁰. -/
theorem word_1024 : Ideal.ofBits .f32 0x44800000#32 = ((1024 : ℝ) : EReal) := by
  simp [Ideal.ofBits, Ideal.ieee, -EReal.coe_mul]; norm_num

/-- The word 0x3D000000 denotes 2⁻⁵ = 1/32. -/
theorem word_inv32 : Ideal.ofBits .f32 0x3D000000#32 = ((1 / 32 : ℝ) : EReal) := by
  simp [Ideal.ofBits, Ideal.ieee, -EReal.coe_mul]; norm_num

/-- √1024 = 32, since 1024 = 32·32. -/
theorem sqrt_1024 : Real.sqrt 1024 = 32 := by
  rw [show (1024 : ℝ) = 32 * 32 by norm_num, Real.sqrt_mul_self (by norm_num)]

/-- The reference's scalar 1/√1024 is the specification's scale 2⁻⁵ (the numerator 1 already read off its word). -/
theorem one_div_sqrt_eq_scale :
    Ideal.div 1 (Ideal.sqrt (Ideal.ofBits .f32 0x44800000#32)) = Cert.Spec.scale := by
  rw [word_1024, Ideal.sqrt_coe, if_neg (by norm_num), sqrt_1024, Ideal.div_coe (by norm_num : (32 : ℝ) ≠ 0), one_mul,
    Cert.Spec.scale, word_inv32]

/-! ## A projection: the product with the weights plus the bias row under every row -/

/-- The first projection stage (product, bias row laid under every row, sum) is the specification's projection, as arrays. -/
theorem proj_stage (X : (⟨S4096x1024, .f32⟩ : BufTy).Contents (Elt Ideal)) (W : (⟨S1024x1024, .f32⟩ : BufTy).Contents (Elt Ideal))
    (b : (⟨S1024, .f32⟩ : BufTy).Contents (Elt Ideal)) :
    val_main_v3 (F := Ideal) X W b = Cert.Spec.proj X W b := by
  funext i
  obtain ⟨r, c, rfl⟩ : ∃ (r : Fin 4096) (c : Fin 1024), i = ix2 r c := ⟨i 0, i 1, eq_ix2 i⟩
  rw [val_main_v3_apply, val_main_v0_apply, val_main_v2_apply, val_main_v1_apply]
  have hl : ∀ k : Fin 1024, lidx_main_v0 (ix2 r c) k = ix2 r k := fun k =>
    funext fun a => Fin.ext (by match a with | ⟨0, _⟩ => rfl | ⟨1, _⟩ => rfl)
  have hr : ∀ k : Fin 1024, ridx_main_v0 (ix2 r c) k = ix2 k c := fun k =>
    funext fun a => Fin.ext (by match a with | ⟨0, _⟩ => rfl | ⟨1, _⟩ => rfl)
  have hb : idx_main_v1 (idx_main_v2 (ix2 r c)) = ix1 c :=
    funext fun a => Fin.ext (by match a with | ⟨0, _⟩ => rfl)
  simp only [hl, hr, hb, Ideal.addf_def]
  rfl

/-- The key projection is the same three operations on other arguments. -/
theorem key_stage (X : (⟨S4096x1024, .f32⟩ : BufTy).Contents (Elt Ideal)) (W : (⟨S1024x1024, .f32⟩ : BufTy).Contents (Elt Ideal))
    (b : (⟨S1024, .f32⟩ : BufTy).Contents (Elt Ideal)) :
    val_main_v7 (F := Ideal) X W b = Cert.Spec.proj X W b := proj_stage X W b

/-- The value projection likewise. -/
theorem value_stage (X : (⟨S4096x1024, .f32⟩ : BufTy).Contents (Elt Ideal)) (W : (⟨S1024x1024, .f32⟩ : BufTy).Contents (Elt Ideal))
    (b : (⟨S1024, .f32⟩ : BufTy).Contents (Elt Ideal)) :
    val_main_v11 (F := Ideal) X W b = Cert.Spec.proj X W b := proj_stage X W b

/-! ## The gate: scaled scores through 1/(1 + e^(−z)) -/

/-- The reference's gate array at (r, j): the score of query row r against key row j, times 1/√1024, through
    1/(1 + e^(−z)) spelled as negate, exponential, add one, reciprocal; that expression is the logistic function. -/
theorem gate_stage (x0 x1 : (⟨S4096x1024, .f32⟩ : BufTy).Contents (Elt Ideal)) (x2 : (⟨S1024x1024, .f32⟩ : BufTy).Contents (Elt Ideal))
    (x3 : (⟨S1024, .f32⟩ : BufTy).Contents (Elt Ideal)) (x4 : (⟨S1024x1024, .f32⟩ : BufTy).Contents (Elt Ideal))
    (x5 : (⟨S1024, .f32⟩ : BufTy).Contents (Elt Ideal)) (r j : Fin 4096) :
    val_main_v23 (F := Ideal) x0 x1 x2 x3 x4 x5 (ix2 r j)
      = Cert.Spec.gateAt (Cert.Spec.proj x0 x2 x3) (Cert.Spec.proj x1 x4 x5) r j := by
  rw [val_main_v23_apply, val_main_v22_apply, val_main_cst_2_apply, val_main_v21_apply, val_main_v20_apply, val_main_cst_1_apply,
    val_main_v19_apply, val_main_v18_apply, val_main_v17_apply, val_main_v16_apply, val_main_v13_apply, val_main_cst_0_apply,
    val_main_v12_apply, val_main_cst_apply, val_main_v15_apply]
  have hl : ∀ k : Fin 1024, lidx_main_v15 (ix2 r j) k = ix2 r k := fun k =>
    funext fun a => Fin.ext (by match a with | ⟨0, _⟩ => rfl | ⟨1, _⟩ => rfl)
  have hr : ∀ k : Fin 1024, idx_main_v14 (ridx_main_v15 (ix2 r j) k) = ix2 j k := fun k =>
    funext fun a => Fin.ext (by match a with | ⟨0, _⟩ => rfl | ⟨1, _⟩ => rfl)
  simp only [val_main_v14_apply, hl, hr, proj_stage, key_stage, Ideal.ofBits_def, Ideal.hostDivf_def, Ideal.addf_def,
    Ideal.mulf_def, Ideal.hostUnary_exp_def, Ideal.hostUnary_sqrt_def, Ideal.hostNegf_def, Ideal.negf_def,
    Ideal.ofBits_one_f32, one_div_sqrt_eq_scale]
  rfl

/-! ## The result: the gates against the value projection, summed over all keys -/

/-- The last stage of the reference, as a function of the eight arguments, is the specification's result. -/
theorem val_eq_spec (x0 x1 : (⟨S4096x1024, .f32⟩ : BufTy).Contents (Elt Ideal)) (x2 : (⟨S1024x1024, .f32⟩ : BufTy).Contents (Elt Ideal))
    (x3 : (⟨S1024, .f32⟩ : BufTy).Contents (Elt Ideal)) (x4 : (⟨S1024x1024, .f32⟩ : BufTy).Contents (Elt Ideal))
    (x5 : (⟨S1024, .f32⟩ : BufTy).Contents (Elt Ideal)) (x6 : (⟨S1024x1024, .f32⟩ : BufTy).Contents (Elt Ideal))
    (x7 : (⟨S1024, .f32⟩ : BufTy).Contents (Elt Ideal)) :
    val_main_v24 (F := Ideal) x0 x1 x2 x3 x4 x5 x6 x7 = Cert.Spec.result x0 x1 x2 x3 x4 x5 x6 x7 := by
  funext i
  obtain ⟨r, c, rfl⟩ : ∃ (r : Fin 4096) (c : Fin 1024), i = ix2 r c := ⟨i 0, i 1, eq_ix2 i⟩
  rw [val_main_v24_apply]
  have hl : ∀ j : Fin 4096, lidx_main_v24 (ix2 r c) j = ix2 r j := fun j =>
    funext fun a => Fin.ext (by match a with | ⟨0, _⟩ => rfl | ⟨1, _⟩ => rfl)
  have hr : ∀ j : Fin 4096, ridx_main_v24 (ix2 r c) j = ix2 j c := fun j =>
    funext fun a => Fin.ext (by match a with | ⟨0, _⟩ => rfl | ⟨1, _⟩ => rfl)
  simp only [hl, hr, gate_stage, value_stage]
  rfl

end Cert.ReferenceIdeal.RefValue

end
-- ==== Proof.lean ====
/-
  The certificate of the sigmoid-gated attention kernel against its jnp reference.

  Both programs compute, from q, x and three weight matrices and biases,
      out(r,c) = Σ_j σ( (Σ_d Q(r,d)·K(j,d)) · 2⁻⁵ ) · V(j,c),   Q = q·Wq + bq,  K = x·Wk + bk,  V = x·Wv + bv,
  with σ(z) = 1/(1 + e^(−z)) and no normalisation over the keys j (Proof/Spec.lean).  The kernel makes Q, K, V in three
  launches of four row blocks each and the result in a fourth launch on a 4 × 8 grid that accumulates, for each block of
  1024 queries, the gated sum over eight blocks of 512 keys in a scratch buffer, starting from zero, and writes the
  block out after the eighth.  Over the extended reals addition is commutative and associative, so the eight partial sums are
  the sum over all 4096 keys; the reference's 1/√1024 is the kernel's 2⁻⁵; the reference's 1/(1 + e^(−z)) is the kernel's
  logistic; and a change of float format is the identity.  No step needs the inputs to be finite.

  The three frames: each launch's body, run at a symbolic grid point, leaves its input blocks in place and writes only
  its output block (and, in the attention launch, its scratch); a launch writes back only its result array, a bias
  reshape writes only its row; so every argument array ends as launched (Proof/KI and Proof/K, the same text in the two
  programs' namespaces; the reference is a host program and its run is its frame).  The ideal pass rewrote nothing, so
  the idealization conjunct is `True`.
-/
import proofs.«104826_j18837726560765_1_alg».proof.Defs
import proofs.«104826_j18837726560765_1_alg».proof.Proof.Gen.Kernel
import proofs.«104826_j18837726560765_1_alg».proof.Proof.Gen.KernelIdeal
import proofs.«104826_j18837726560765_1_alg».proof.Proof.Gen.ReferenceIdeal
import proofs.«104826_j18837726560765_1_alg».proof.Proof.Gen.Pre_finite_inputs
import proofs.«104826_j18837726560765_1_alg».proof.Proof.K.Frame
import proofs.«104826_j18837726560765_1_alg».proof.Proof.KI.Value
import proofs.«104826_j18837726560765_1_alg».proof.Proof.Ref.IsSpec

noncomputable section

namespace Cert.Proof

open Idealize.ShloMosaic Idealize.SL.Sem

/-- The word-level kernel runs and leaves its arguments as launched. -/
theorem frame_k : @Cert.frame_Kernel Cert.Kernel.Gen.facts Cert.Pre_finite_inputs.Gen.facts :=
  fun m ρ _ => Cert.Kernel.Hand.frameH (F := Bits) m ρ

/-- So does the idealized kernel, -/
theorem frame_ki : @Cert.frame_KernelIdeal Cert.KernelIdeal.Gen.facts Cert.Pre_finite_inputs.Gen.facts :=
  fun m ρ _ => Cert.KernelIdeal.Hand.frameH (F := Ideal) m ρ

/-- and the reference, a host program whose run names every result. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the specification's function of them. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Hand.result_eq m c), (h c).2⟩)
      (Cert.KernelIdeal.Hand.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v24_eq, Cert.ReferenceIdeal.RefValue.val_eq_spec,
      (hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
